-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S16x2048 : Shape := ⟨2, ![16, 2048]⟩
abbrev S16 : Shape := ⟨1, ![16]⟩
abbrev S16x16x2048 : Shape := ⟨3, ![16, 16, 2048]⟩
abbrev S16x16 : Shape := ⟨2, ![16, 16]⟩
abbrev S256x16x2048 : Shape := ⟨3, ![256, 16, 2048]⟩
abbrev S256x16 : Shape := ⟨2, ![256, 16]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_
  bcast_S_S16x16x2048 : S_.BroadcastsInDim S16x16x2048 (![] : Fin 0 → Fin S16x16x2048.rank)
  reducesTo_S16x16x2048_S_d0_1_2 : S16x16x2048.ReducesTo [0, 1, 2] S_
  bcast_S_S16x16 : S_.BroadcastsInDim S16x16 (![] : Fin 0 → Fin S16x16.rank)
  reducesTo_S16x16_S_d0_1 : S16x16.ReducesTo [0, 1] S_
  bcast_S_S256x16x2048 : S_.BroadcastsInDim S256x16x2048 (![] : Fin 0 → Fin S256x16x2048.rank)
  reducesTo_S256x16x2048_S_d0_1_2 : S256x16x2048.ReducesTo [0, 1, 2] S_
  bcast_S_S256x16 : S_.BroadcastsInDim S256x16 (![] : Fin 0 → Fin S256x16.rank)
  reducesTo_S256x16_S_d0_1 : S256x16.ReducesTo [0, 1] S_

variable [Facts]

def fn_part1 {F : FTy → Type} [FloatOps F] (main_arg4 : FVec F S16x16 .f32) (main_arg5 : FVec F S256x16x2048 .f32) (main_arg6 : FVec F S256x16 .f32) (main_v13 : IVec S_ 1) (main_v16 : IVec S16x16x2048 1) : IVec S_ 1 :=
  let main_c_5 : IVec S_ 1 := constantI S_ 1 1#1
  let main_v17 : IVec S_ 1 := (fun x v => Host.reduce IntOp.andi x v reducesTo_S16x16x2048_S_d0_1_2 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S256x16x2048 .f32 := Host.absf main_arg5
  let main_cst_8 : FVec F S_ .f32 := constant S_ .f32 0x7F800000#32
  let main_v25 : FVec F S256x16x2048 .f32 := broadcastInDim S256x16x2048 ![] bcast_S_S256x16x2048 main_cst_8
  let main_v26 : IVec S256x16x2048 1 := cmpf .olt main_v24 main_v25
  let main_c_9 : IVec S_ 1 := constantI S_ 1 1#1
  let main_v27 : IVec S_ 1 := (fun x v => Host.reduce IntOp.andi x v reducesTo_S256x16x2048_S_d0_1_2 h_S_) main_v26 main_c_9
  let main_v28 : IVec S_ 1 := andi main_v23 main_v27
  let main_v29 : FVec F S256x16 .f32 := Host.absf main_arg6
  let main_cst_10 : FVec F S_ .f32 := constant S_ .f32 0x7F800000#32
  let main_v30 : FVec F S256x16 .f32 := broadcastInDim S256x16 ![] bcast_S_S256x16 main_cst_10
  let main_v31 : IVec S256x16 1 := cmpf .olt main_v29 main_v30
  let main_c_11 : IVec S_ 1 := constantI S_ 1 1#1
  let main_v32 : IVec S_ 1 := (fun x v => Host.reduce IntOp.andi x v reducesTo_S256x16_S_d0_1 h_S_) main_v31 main_c_11
  let main_v33 : IVec S_ 1 := andi main_v28 main_v32
  main_v33

def fn {F : FTy → Type} [FloatOps F] (main_arg0 : FVec F S4096x2048 .f32) (main_arg1 : FVec F S16x2048 .f32) (main_arg2 : FVec F S16 .f32) (main_arg3 : FVec F S16x16x2048 .f32) (main_arg4 : FVec F S16x16 .f32) (main_arg5 : FVec F S256x16x2048 .f32) (main_arg6 : FVec F S256x16 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16x2048 .f32 := Host.absf main_arg3
  let main_cst_4 : FVec F S_ .f32 := constant S_ .f32 0x7F800000#32
  let main_v15 : FVec F S16x16x2048 .f32 := broadcastInDim S16x16x2048 ![] bcast_S_S16x16x2048 main_cst_4
  let main_v16 : IVec S16x16x2048 1 := cmpf .olt main_v14 main_v15
  fn_part1 (F := F) main_arg4 main_arg5 main_arg6 main_v13 main_v16
-- ==== Kernel.lean ====
abbrev S4096x2048 : Shape := ⟨2, ![4096, 2048]⟩
abbrev S16x2048 : Shape := ⟨2, ![16, 2048]⟩
abbrev S16 : Shape := ⟨1, ![16]⟩
abbrev S16x16x2048 : Shape := ⟨3, ![16, 16, 2048]⟩
abbrev S16x16 : Shape := ⟨2, ![16, 16]⟩
abbrev S256x16x2048 : Shape := ⟨3, ![256, 16, 2048]⟩
abbrev S256x16 : Shape := ⟨2, ![256, 16]⟩
abbrev S256x2048 : Shape := ⟨2, ![256, 2048]⟩
abbrev S1x16 : Shape := ⟨2, ![1, 16]⟩
abbrev S1x256 : Shape := ⟨2, ![1, 256]⟩
abbrev S1x4096 : Shape := ⟨2, ![1, 4096]⟩
abbrev S4096x4368 : Shape := ⟨2, ![4096, 4368]⟩
abbrev S4096x4096 : Shape := ⟨2, ![4096, 4096]⟩
abbrev S128x2048 : Shape := ⟨2, ![128, 2048]⟩
abbrev S128x4368 : Shape := ⟨2, ![128, 4368]⟩
abbrev S128x4096 : Shape := ⟨2, ![128, 4096]⟩
abbrev S128x16 : Shape := ⟨2, ![128, 16]⟩
abbrev S128 : Shape := ⟨1, ![128]⟩
abbrev S128x1 : Shape := ⟨2, ![128, 1]⟩
abbrev S128x256 : Shape := ⟨2, ![128, 256]⟩
abbrev S128x16x16 : Shape := ⟨3, ![128, 16, 16]⟩
abbrev S128x16x1 : Shape := ⟨3, ![128, 16, 1]⟩
abbrev S128x256x16 : Shape := ⟨3, ![128, 256, 16]⟩
abbrev S128x256x1 : Shape := ⟨3, ![128, 256, 1]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S16x2048, .f32⟩
  | .hbm, ⟨2, _⟩ => ⟨S16, .f32⟩
  | .hbm, ⟨3, _⟩ => ⟨S16x16x2048, .f32⟩
  | .hbm, ⟨4, _⟩ => ⟨S16x16, .f32⟩
  | .hbm, ⟨5, _⟩ => ⟨S256x16x2048, .f32⟩
  | .hbm, ⟨6, _⟩ => ⟨S256x16, .f32⟩
  | .hbm, ⟨7, _⟩ => ⟨S16x2048, .bf16⟩
  | .hbm, ⟨8, _⟩ => ⟨S256x2048, .f32⟩
  | .hbm, ⟨9, _⟩ => ⟨S256x2048, .bf16⟩
  | .hbm, ⟨10, _⟩ => ⟨S4096x2048, .f32⟩
  | .hbm, ⟨11, _⟩ => ⟨S4096x2048, .bf16⟩
  | .hbm, ⟨12, _⟩ => ⟨S1x16, .f32⟩
  | .hbm, ⟨13, _⟩ => ⟨S1x256, .f32⟩
  | .hbm, ⟨14, _⟩ => ⟨S1x4096, .f32⟩
  | .hbm, ⟨15, _⟩ => ⟨S4096x4368, .f32⟩
  | .hbm, ⟨16, _⟩ => ⟨S4096x4096, .f32⟩
  | .local _ .vmem, ⟨0, _⟩ => ⟨S128x2048, .f32⟩
  | .local _ .vmem, ⟨1, _⟩ => ⟨S128x2048, .f32⟩
  | .local _ .vmem, ⟨2, _⟩ => ⟨S16x2048, .bf16⟩
  | .local _ .vmem, ⟨3, _⟩ => ⟨S1x16, .f32⟩
  | .local _ .vmem, ⟨4, _⟩ => ⟨S256x2048, .bf16⟩
  | .local _ .vmem, ⟨5, _⟩ => ⟨S1x256, .f32⟩
  | .local _ .vmem, ⟨6, _⟩ => ⟨S4096x2048, .bf16⟩
  | .local _ .vmem, ⟨7, _⟩ => ⟨S1x4096, .f32⟩
  | .local _ .vmem, ⟨8, _⟩ => ⟨S128x4368, .f32⟩
  | .local _ .vmem, ⟨9, _⟩ => ⟨S128x4368, .f32⟩
  | .local _ .vmem, ⟨10, _⟩ => ⟨S128x4096, .f32⟩
  | .local _ .vmem, ⟨11, _⟩ => ⟨S128x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4368 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S16x16x2048_S256x2048 : S16x16x2048.ShapeCasts S256x2048
  shapeCasts_S256x16x2048_S4096x2048 : S256x16x2048.ShapeCasts S4096x2048
  shapeCasts_S16_S1x16 : S16.ShapeCasts S1x16
  shapeCasts_S16x16_S1x256 : S16x16.ShapeCasts S1x256
  shapeCasts_S256x16_S1x4096 : S256x16.ShapeCasts S1x4096
  inb_S128x2048_S128x2048_0_0 : ∀ a, (![0, 0] : Fin 2 → Nat) a + S128x2048.size a ≤ S128x2048.size a
  h_S128x2048 : 0 < S128x2048.numel
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  reduces_S128x16_S128 : S128x16.Reduces [1] S128
  shapeCasts_S128_S128x1 : S128.ShapeCasts S128x1
  broadcasts_S128x1_S128x16 : S128x1.Broadcasts S128x16
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  shapeCasts_S128x256_S128x16x16 : S128x256.ShapeCasts S128x16x16
  reduces_S128x16x16_S128x16 : S128x16x16.Reduces [2] S128x16
  shapeCasts_S128x16_S128x16x1 : S128x16.ShapeCasts S128x16x1
  broadcasts_S128x16x1_S128x16x16 : S128x16x1.Broadcasts S128x16x16
  shapeCasts_S128x16x16_S128x256 : S128x16x16.ShapeCasts S128x256
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S128x4096_S128x256x16 : S128x4096.ShapeCasts S128x256x16
  reduces_S128x256x16_S128x256 : S128x256x16.Reduces [2] S128x256
  shapeCasts_S128x256_S128x256x1 : S128x256.ShapeCasts S128x256x1
  broadcasts_S128x256x1_S128x256x16 : S128x256x1.Broadcasts S128x256x16
  shapeCasts_S128x256x16_S128x4096 : S128x256x16.ShapeCasts S128x4096
  inb_S128x4096_S128x4096_0_0 : ∀ a, (![0, 0] : Fin 2 → Nat) a + S128x4096.size a ≤ S128x4096.size a
  h_S128x4096 : 0 < S128x4096.numel
  inb_S128x4368_S128x16_0_0 : ∀ a, (![0, 0] : Fin 2 → Nat) a + S128x16.size a ≤ S128x4368.size a
  h_S128x16 : 0 < S128x16.numel
  inb_S128x4368_S128x256_0_16 : ∀ a, (![0, 16] : Fin 2 → Nat) a + S128x256.size a ≤ S128x4368.size a
  h_S128x256 : 0 < S128x256.numel
  inb_S128x4368_S128x4096_0_272 : ∀ a, (![0, 272] : Fin 2 → Nat) a + S128x4096.size a ≤ S128x4368.size a
  dot_S128x2048_S16x2048_S128x16_1_1_0_0_n_n_wf : DotDims.WF S128x2048 S16x2048 S128x16 [1] [1] [0] [0] [] []
  dot_S128x2048_S256x2048_S128x256_1_1_0_0_n_n_wf : DotDims.WF S128x2048 S256x2048 S128x256 [1] [1] [0] [0] [] []
  dot_S128x2048_S4096x2048_S128x4096_1_1_0_0_n_n_wf : DotDims.WF S128x2048 S4096x2048 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .bf16 = 32 ∨ (Rect.block (s := S16x2048) S16x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x2048.size a ≤ S4096x2048.size a
  hwx0_5 : ∀ i : grid0.Coords, EltTy.bits .bf16 = 32 ∨ (Rect.block (s := S4096x2048) S4096x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4368.size a ≤ S4096x4368.size a
  hwx0_7 : ∀ i : grid0.Coords, EltTy.bits .f32 = 32 ∨ (Rect.block (s := S4096x4368) S128x4368.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S4096x4096.size a
  hwx0_8 : ∀ i : grid0.Coords, EltTy.bits .f32 = 32 ∨ (Rect.block (s := S4096x4096) S128x4096.size (cc0_transform_8 i) (hinb0_8 i)).WholeWords (EltTy.packing .f32)

variable [Facts₀]

def dot_S128x2048_S16x2048_S128x16_1_1_0_0_n_n : DotDims S128x2048 S16x2048 S128x16 where
  lhsContracting := [1]
  rhsContracting := [1]
  lhsNonContracting := [0]
  rhsNonContracting := [0]
  lhsBatch := []
  rhsBatch := []
  wf := dot_S128x2048_S16x2048_S128x16_1_1_0_0_n_n_wf
def dot_S128x2048_S256x2048_S128x256_1_1_0_0_n_n : DotDims S128x2048 S256x2048 S128x256 where
  lhsContracting := [1]
  rhsContracting := [1]
  lhsNonContracting := [0]
  rhsNonContracting := [0]
  lhsBatch := []
  rhsBatch := []
  wf := dot_S128x2048_S256x2048_S128x256_1_1_0_0_n_n_wf
def dot_S128x2048_S4096x2048_S128x4096_1_1_0_0_n_n : DotDims S128x2048 S4096x2048 S128x4096 where
  lhsContracting := [1]
  rhsContracting := [1]
  lhsNonContracting := [0]
  rhsNonContracting := [0]
  lhsBatch := []
  rhsBatch := []
  wf := dot_S128x2048_S4096x2048_S128x4096_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S128x4368.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S128x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S16x2048 : Shape := ⟨2, ![16, 2048]⟩
abbrev S16 : Shape := ⟨1, ![16]⟩
abbrev S16x16x2048 : Shape := ⟨3, ![16, 16, 2048]⟩
abbrev S16x16 : Shape := ⟨2, ![16, 16]⟩
abbrev S256x16x2048 : Shape := ⟨3, ![256, 16, 2048]⟩
abbrev S256x16 : Shape := ⟨2, ![256, 16]⟩
abbrev S2048x16 : Shape := ⟨2, ![2048, 16]⟩
abbrev S4096x16 : Shape := ⟨2, ![4096, 16]⟩
abbrev S1x16 : Shape := ⟨2, ![1, 16]⟩
abbrev S_ : Shape := ⟨0, ![]⟩
abbrev S4096 : Shape := ⟨1, ![4096]⟩
abbrev S4096x1 : Shape := ⟨2, ![4096, 1]⟩
abbrev S4096x16x16 : Shape := ⟨3, ![4096, 16, 16]⟩
abbrev S1x16x16 : Shape := ⟨3, ![1, 16, 16]⟩
abbrev S4096x16x1 : Shape := ⟨3, ![4096, 16, 1]⟩
abbrev S4096x256 : Shape := ⟨2, ![4096, 256]⟩
abbrev S4096x256x16 : Shape := ⟨3, ![4096, 256, 16]⟩
abbrev S1x256x16 : Shape := ⟨3, ![1, 256, 16]⟩
abbrev S4096x256x1 : Shape := ⟨3, ![4096, 256, 1]⟩
abbrev S4096x4096 : Shape := ⟨2, ![4096, 4096]⟩
abbrev S4096x4368 : Shape := ⟨2, ![4096, 4368]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S16x2048, .f32⟩
  | .hbm, ⟨2, _⟩ => ⟨S16, .f32⟩
  | .hbm, ⟨3, _⟩ => ⟨S16x16x2048, .f32⟩
  | .hbm, ⟨4, _⟩ => ⟨S16x16, .f32⟩
  | .hbm, ⟨5, _⟩ => ⟨S256x16x2048, .f32⟩
  | .hbm, ⟨6, _⟩ => ⟨S256x16, .f32⟩
  | .hbm, ⟨7, _⟩ => ⟨S2048x16, .f32⟩
  | .hbm, ⟨8, _⟩ => ⟨S4096x16, .f32⟩
  | .hbm, ⟨9, _⟩ => ⟨S1x16, .f32⟩
  | .hbm, ⟨10, _⟩ => ⟨S4096x16, .f32⟩
  | .hbm, ⟨11, _⟩ => ⟨S4096x16, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x1, .f32⟩
  | .hbm, ⟨25, _⟩ => ⟨S4096x16, .f32⟩
  | .hbm, ⟨26, _⟩ => ⟨S4096x16, .f32⟩
  | .hbm, ⟨27, _⟩ => ⟨S4096x16x16, .f32⟩
  | .hbm, ⟨28, _⟩ => ⟨S1x16x16, .f32⟩
  | .hbm, ⟨29, _⟩ => ⟨S4096x16x16, .f32⟩
  | .hbm, ⟨30, _⟩ => ⟨S4096x16x16, .f32⟩
  | .hbm, ⟨31, _⟩ => ⟨S_, .f32⟩
  | .hbm, ⟨32, _⟩ => ⟨S4096x16, .f32⟩
  | .hbm, ⟨33, _⟩ => ⟨S_, .f32⟩
  | .hbm, ⟨34, _⟩ => ⟨S4096x16, .f32⟩
  | .hbm, ⟨35, _⟩ => ⟨S4096x16, .f32⟩
  | .hbm, ⟨36, _⟩ => ⟨S4096x16x1, .f32⟩
  | .hbm, ⟨37, _⟩ => ⟨S4096x16x16, .f32⟩
  | .hbm, ⟨38, _⟩ => ⟨S4096x16x16, .f32⟩
  | .hbm, ⟨39, _⟩ => ⟨S4096x16x16, .f32⟩
  | .hbm, ⟨40, _⟩ => ⟨S_, .f32⟩
  | .hbm, ⟨41, _⟩ => ⟨S4096x16, .f32⟩
  | .hbm, ⟨42, _⟩ => ⟨S4096x16x1, .f32⟩
  | .hbm, ⟨43, _⟩ => ⟨S4096x16x1, .f32⟩
  | .hbm, ⟨44, _⟩ => ⟨S4096x16x16, .f32⟩
  | .hbm, ⟨45, _⟩ => ⟨S4096x16x16, .f32⟩
  | .hbm, ⟨46, _⟩ => ⟨S4096x16x1, .f32⟩
  | .hbm, ⟨47, _⟩ => ⟨S4096x16x16, .f32⟩
  | .hbm, ⟨48, _⟩ => ⟨S4096x16x16, .f32⟩
  | .hbm, ⟨49, _⟩ => ⟨S4096x256, .f32⟩
  | .hbm, ⟨50, _⟩ => ⟨S4096x256x16, .f32⟩
  | .hbm, ⟨51, _⟩ => ⟨S1x256x16, .f32⟩
  | .hbm, ⟨52, _⟩ => ⟨S4096x256x16, .f32⟩
  | .hbm, ⟨53, _⟩ => ⟨S4096x256x16, .f32⟩
  | .hbm, ⟨54, _⟩ => ⟨S_, .f32⟩
  | .hbm, ⟨55, _⟩ => ⟨S4096x256, .f32⟩
  | .hbm, ⟨56, _⟩ => ⟨S_, .f32⟩
  | .hbm, ⟨57, _⟩ => ⟨S4096x256, .f32⟩
  | .hbm, ⟨58, _⟩ => ⟨S4096x256, .f32⟩
  | .hbm, ⟨59, _⟩ => ⟨S4096x256x1, .f32⟩
  | .hbm, ⟨60, _⟩ => ⟨S4096x256x16, .f32⟩
  | .hbm, ⟨61, _⟩ => ⟨S4096x256x16, .f32⟩
  | .hbm, ⟨62, _⟩ => ⟨S4096x256x16, .f32⟩
  | .hbm, ⟨63, _⟩ => ⟨S_, .f32⟩
  | .hbm, ⟨64, _⟩ => ⟨S4096x256, .f32⟩
  | .hbm, ⟨65, _⟩ => ⟨S4096x256x1, .f32⟩
  | .hbm, ⟨66, _⟩ => ⟨S4096x256x1, .f32⟩
  | .hbm, ⟨67, _⟩ => ⟨S4096x256x16, .f32⟩
  | .hbm, ⟨68, _⟩ => ⟨S4096x256x16, .f32⟩
  | .hbm, ⟨69, _⟩ => ⟨S4096x256x1, .f32⟩
  | .hbm, ⟨70, _⟩ => ⟨S4096x256x16, .f32⟩
  | .hbm, ⟨71, _⟩ => ⟨S4096x256x16, .f32⟩
  | .hbm, ⟨72, _⟩ => ⟨S4096x4096, .f32⟩
  | .hbm, ⟨73, _⟩ => ⟨S4096x4368, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_call2_cst : Ref sig .tc := ⟨.hbm, 54, rfl⟩
abbrev main_call2_v0 : Ref sig .tc := ⟨.hbm, 55, rfl⟩
abbrev main_call2_cst_0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_cst_1 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩

abbrev nD : Nat := 1
abbrev τ : Topo := Topo.v7x

variable {F : FTy → Type} [FloatOps F]

class Facts₀ : Prop where
  transposes_S16x2048_S2048x16_1_0 : S16x2048.Transposes [1, 0] S2048x16
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x16_0_1 : S4096x1.BroadcastsInDim S4096x16 (![0, 1] : Fin 2 → Fin S4096x16.rank)
  bcast_S16x16_S1x16x16_1_2 : S16x16.BroadcastsInDim S1x16x16 (![1, 2] : Fin 2 → Fin S1x16x16.rank)
  bcast_S1x16x16_S4096x16x16_0_1_2 : S1x16x16.BroadcastsInDim S4096x16x16 (![0, 1, 2] : Fin 3 → Fin S4096x16x16.rank)
  reducesTo_S4096x16x16_S4096x16_d2 : S4096x16x16.ReducesTo [2] S4096x16
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  bcast_S4096x16x1_S4096x16x16_0_1_2 : S4096x16x1.BroadcastsInDim S4096x16x16 (![0, 1, 2] : Fin 3 → Fin S4096x16x16.rank)
  shapeCasts_S4096x16x16_S4096x256 : S4096x16x16.ShapeCasts S4096x256
  bcast_S256x16_S1x256x16_1_2 : S256x16.BroadcastsInDim S1x256x16 (![1, 2] : Fin 2 → Fin S1x256x16.rank)
  bcast_S1x256x16_S4096x256x16_0_1_2 : S1x256x16.BroadcastsInDim S4096x256x16 (![0, 1, 2] : Fin 3 → Fin S4096x256x16.rank)
  reducesTo_S4096x256x16_S4096x256_d2 : S4096x256x16.ReducesTo [2] S4096x256
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x256x1_S4096x256x16_0_1_2 : S4096x256x1.BroadcastsInDim S4096x256x16 (![0, 1, 2] : Fin 3 → Fin S4096x256x16.rank)
  shapeCasts_S4096x256x16_S4096x4096 : S4096x256x16.ShapeCasts S4096x4096
  concatenates_S4096x16_S4096x256_S4096x4096_S4096x4368_d1 : Shape.Concatenates [S4096x16, S4096x256, S4096x4096] S4096x4368 1
  dot_S4096x2048_S2048x16_S4096x16_1_0_0_1_n_n_wf : DotDims.WF S4096x2048 S2048x16 S4096x16 [1] [0] [0] [1] [] []
  dot_S4096x2048_S16x16x2048_S4096x16x16_1_2_0_01_n_n_wf : DotDims.WF S4096x2048 S16x16x2048 S4096x16x16 [1] [2] [0] [0, 1] [] []
  dot_S4096x2048_S256x16x2048_S4096x256x16_1_2_0_01_n_n_wf : DotDims.WF S4096x2048 S256x16x2048 S4096x256x16 [1] [2] [0] [0, 1] [] []

variable [Facts₀]

def dot_S4096x2048_S2048x16_S4096x16_1_0_0_1_n_n : DotDims S4096x2048 S2048x16 S4096x16 where
  lhsContracting := [1]
  rhsContracting := [0]
  lhsNonContracting := [0]
  rhsNonContracting := [1]
  lhsBatch := []
  rhsBatch := []
  wf := dot_S4096x2048_S2048x16_S4096x16_1_0_0_1_n_n_wf
def dot_S4096x2048_S16x16x2048_S4096x16x16_1_2_0_01_n_n : DotDims S4096x2048 S16x16x2048 S4096x16x16 where
  lhsContracting := [1]
  rhsContracting := [2]
  lhsNonContracting := [0]
  rhsNonContracting := [0, 1]
  lhsBatch := []
  rhsBatch := []
  wf := dot_S4096x2048_S16x16x2048_S4096x16x16_1_2_0_01_n_n_wf
def dot_S4096x2048_S256x16x2048_S4096x256x16_1_2_0_01_n_n : DotDims S4096x2048 S256x16x2048 S4096x256x16 where
  lhsContracting := [1]
  rhsContracting := [2]
  lhsNonContracting := [0]
  rhsNonContracting := [0, 1]
  lhsBatch := []
  rhsBatch := []
  wf := dot_S4096x2048_S256x16x2048_S4096x256x16_1_2_0_01_n_n_wf

class Facts : Prop extends Facts₀ where

variable [Facts]
-- ==== Proof.Pieces.lean ====
/-
  What the kernel body leaves in its two output blocks, as functions of the blocks it loads.

  The body stores the leaves' block whole; the block of all three levels it fills by three stores side by side: level 0
  in columns 0..15, level 1 in columns 16..271, the leaves in columns 272..4367. So the leaves' block is the level-2
  payload, and the all-levels block reads, at column `j`, the band's payload at `j` less the band's first column.
-/
import proofs.«147709_j412316860848_1_alg».proof.Proof.Gen.KernelIdeal.Frame
import Idealize.ShloMosaic.Lib.Pipeline.Value
import Idealize.ShloMosaic.Lib.ValueIdx

set_option maxRecDepth 16384

noncomputable section

namespace Cert.KernelIdeal.Pieces

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

theorem zeros2 : (![0, 0] : Fin 2 → Nat) = fun _ => 0 := funext fun a => by fin_cases a <;> rfl

/-- Three bands of columns side by side: 16, 256 and 4096 wide. -/
def bands (p4 : Vec F S128x16 .f32) (p1 : Vec F S128x256 .f32) (p2 : Vec F S128x4096 .f32) : Vec F S128x4368 .f32 := fun y =>
  if h0 : (y 1).val < 16 then p4 (ix2 ⟨(y 0).val, idx2_lt0 y⟩ ⟨(y 1).val, h0⟩)
  else if h1 : (y 1).val < 272 then p1 (ix2 ⟨(y 0).val, idx2_lt0 y⟩ ⟨(y 1).val - 16, by omega⟩)
  else p2 (ix2 ⟨(y 0).val, idx2_lt0 y⟩ ⟨(y 1).val - 272, by have := idx2_lt1 y; omega⟩)

/-- Three stores side by side leave the three payloads in their bands. -/
theorem canon_bands (p4 : Vec F S128x16 .f32) (p1 : Vec F S128x256 .f32) (p2 : Vec F S128x4096 .f32) :
    View.canon [(⟨Rect.unit ![0, 272] ![128, 4096] inb_S128x4368_S128x4096_0_272, p2⟩ : View.Piece (Elt F) S128x4368 .f32),
        ⟨Rect.unit ![0, 16] ![128, 256] inb_S128x4368_S128x256_0_16, p1⟩,
        ⟨Rect.unit ![0, 0] ![128, 16] inb_S128x4368_S128x16_0_0, p4⟩] = bands p4 p1 p2 := by
  funext y
  have hy0 : (y 0).val < 128 := idx2_lt0 y
  have hy1 : (y 1).val < 4368 := idx2_lt1 y
  refine View.canon_apply_of_pieces (bands p4 p1 p2) _ ?_ y ?_
  · intro p hp
    simp only [List.mem_cons, List.not_mem_nil, or_false] at hp
    rcases hp with rfl | rfl | rfl
    · intro x
      have hx1 : (x 1).val < 4096 := (x 1).isLt
      have e1 : (((Rect.unit (s := S128x4368) ![0, 272] ![128, 4096] inb_S128x4368_S128x4096_0_272).emb x) 1).val = 272 + 1 * (x 1).val := rfl
      unfold bands
      rw [dif_neg (by rw [e1]; omega), dif_neg (by rw [e1]; omega)]
      exact congrArg p2 (funext fun a => Fin.ext (by
        match a with
        | ⟨0, _⟩ => show (x 0).val = 0 + 1 * (x 0).val; omega
        | ⟨1, _⟩ => show (x 1).val = 272 + 1 * (x 1).val - 272; omega))
    · intro x
      have hx1 : (x 1).val < 256 := (x 1).isLt
      have e1 : (((Rect.unit (s := S128x4368) ![0, 16] ![128, 256] inb_S128x4368_S128x256_0_16).emb x) 1).val = 16 + 1 * (x 1).val := rfl
      unfold bands
      rw [dif_neg (by rw [e1]; omega), dif_pos (by rw [e1]; omega)]
      exact congrArg p1 (funext fun a => Fin.ext (by
        match a with
        | ⟨0, _⟩ => show (x 0).val = 0 + 1 * (x 0).val; omega
        | ⟨1, _⟩ => show (x 1).val = 16 + 1 * (x 1).val - 16; omega))
    · intro x
      have hx1 : (x 1).val < 16 := (x 1).isLt
      have e1 : (((Rect.unit (s := S128x4368) ![0, 0] ![128, 16] inb_S128x4368_S128x16_0_0).emb x) 1).val = 0 + 1 * (x 1).val := rfl
      unfold bands
      rw [dif_pos (by rw [e1]; omega)]
      exact congrArg p4 (funext fun a => Fin.ext (by
        match a with
        | ⟨0, _⟩ => show (x 0).val = 0 + 1 * (x 0).val; omega
        | ⟨1, _⟩ => show (x 1).val = 0 + 1 * (x 1).val; omega))
  · by_cases h0 : (y 1).val < 16
    · refine ⟨⟨Rect.unit ![0, 0] ![128, 16] inb_S128x4368_S128x16_0_0, p4⟩, List.mem_cons_of_mem _ (List.mem_cons_of_mem _ (List.mem_cons_self)), ?_⟩
      show y ∈ (Rect.unit (s := S128x4368) ![0, 0] ![128, 16] inb_S128x4368_S128x16_0_0).set
      rw [Rect.mem_set_unit]
      intro a
      match a with
      | ⟨0, _⟩ => exact ⟨Nat.zero_le _, by show (y 0).val < 0 + 128; omega⟩
      | ⟨1, _⟩ => exact ⟨Nat.zero_le _, by show (y 1).val < 0 + 16; omega⟩
    · by_cases h1 : (y 1).val < 272
      · refine ⟨⟨Rect.unit ![0, 16] ![128, 256] inb_S128x4368_S128x256_0_16, p1⟩, List.mem_cons_of_mem _ (List.mem_cons_self), ?_⟩
        show y ∈ (Rect.unit (s := S128x4368) ![0, 16] ![128, 256] inb_S128x4368_S128x256_0_16).set
        rw [Rect.mem_set_unit]
        intro a
        match a with
        | ⟨0, _⟩ => exact ⟨Nat.zero_le _, by show (y 0).val < 0 + 128; omega⟩
        | ⟨1, _⟩ => exact ⟨by show 16 ≤ (y 1).val; omega, by show (y 1).val < 16 + 256; omega⟩
      · refine ⟨⟨Rect.unit ![0, 272] ![128, 4096] inb_S128x4368_S128x4096_0_272, p2⟩, List.mem_cons_self, ?_⟩
        show y ∈ (Rect.unit (s := S128x4368) ![0, 272] ![128, 4096] inb_S128x4368_S128x4096_0_272).set
        rw [Rect.mem_set_unit]
        intro a
        match a with
        | ⟨0, _⟩ => exact ⟨Nat.zero_le _, by show (y 0).val < 0 + 128; omega⟩
        | ⟨1, _⟩ => exact ⟨by show 272 ≤ (y 1).val; omega, by show (y 1).val < 272 + 4096; omega⟩

/-- The leaves' block after the body: the level-2 payload of the loaded blocks. -/
theorem out8_eq (c : Dev nD) (i : grid0.Coords) (arg1 : Memref sig .tc .vmem S128x2048 .f32) (harg1 : arg1.IsWhole) (arg2 : Memref sig .tc .vmem S16x2048 .bf16) (harg2 : arg2.IsWhole) (arg3 : Memref sig .tc .vmem S1x16 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S4096x2048 .bf16) (harg6 : arg6.IsWhole) (arg7 : Memref sig .tc .vmem S1x4096 .f32) (harg7 : arg7.IsWhole) (arg8 : Memref sig .tc .vmem S128x4368 .f32) (harg8 : arg8.IsWhole) (arg9 : Memref sig .tc .vmem S128x4096 .f32) (harg9 : arg9.IsWhole)
    (x0 : Vec F S128x2048 .f32) (x1 : Vec F S16x2048 .bf16) (x2 : Vec F S1x16 .f32) (x3 : Vec F S256x2048 .bf16) (x4 : Vec F S1x256 .f32) (x5 : Vec F S4096x2048 .bf16) (x6 : Vec F S1x4096 .f32) :
    out0_A_8 c i arg1 harg1 arg2 harg2 arg3 harg3 arg4 harg4 arg5 harg5 arg6 harg6 arg7 harg7 arg8 harg8 arg9 harg9 x0 x1 x2 x3 x4 x5 x6 = k0_pay2 (k0_pay3 x0) (k0_pay4 x0 x1 x2) (k0_pay5 x0 x3 x4) x5 x6 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero zeros2]
  simp only [View.readAt_eq_ld, harg1.read_unread, harg2.read_unread, harg3.read_unread, harg4.read_unread, harg5.read_unread, harg6.read_unread, harg7.read_unread, View.ld_unit_zero (S := S128x2048) zeros2, View.ld_unit_zero (S := S16x2048) zeros2, View.ld_unit_zero (S := S1x16) zeros2, View.ld_unit_zero (S := S256x2048) zeros2, View.ld_unit_zero (S := S1x256) zeros2, View.ld_unit_zero (S := S4096x2048) zeros2, View.ld_unit_zero (S := S1x4096) zeros2]

/-- The all-levels block after the body: the three payloads in their bands. -/
theorem out7_eq (c : Dev nD) (i : grid0.Coords) (arg1 : Memref sig .tc .vmem S128x2048 .f32) (harg1 : arg1.IsWhole) (arg2 : Memref sig .tc .vmem S16x2048 .bf16) (harg2 : arg2.IsWhole) (arg3 : Memref sig .tc .vmem S1x16 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S4096x2048 .bf16) (harg6 : arg6.IsWhole) (arg7 : Memref sig .tc .vmem S1x4096 .f32) (harg7 : arg7.IsWhole) (arg8 : Memref sig .tc .vmem S128x4368 .f32) (harg8 : arg8.IsWhole) (arg9 : Memref sig .tc .vmem S128x4096 .f32) (harg9 : arg9.IsWhole)
    (x0 : Vec F S128x2048 .f32) (x1 : Vec F S16x2048 .bf16) (x2 : Vec F S1x16 .f32) (x3 : Vec F S256x2048 .bf16) (x4 : Vec F S1x256 .f32) (x5 : Vec F S4096x2048 .bf16) (x6 : Vec F S1x4096 .f32) :
    out0_A_7 c i arg1 harg1 arg2 harg2 arg3 harg3 arg4 harg4 arg5 harg5 arg6 harg6 arg7 harg7 arg8 harg8 arg9 harg9 x0 x1 x2 x3 x4 x5 x6 = bands (k0_pay4 x0 x1 x2) (k0_pay1 (k0_pay4 x0 x1 x2) (k0_pay5 x0 x3 x4)) (k0_pay2 (k0_pay3 x0) (k0_pay4 x0 x1 x2) (k0_pay5 x0 x3 x4) x5 x6) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S128x2048) zeros2, View.ld_unit_zero (S := S16x2048) zeros2, View.ld_unit_zero (S := S1x16) zeros2, View.ld_unit_zero (S := S256x2048) zeros2, View.ld_unit_zero (S := S1x256) zeros2, View.ld_unit_zero (S := S4096x2048) zeros2, View.ld_unit_zero (S := S1x4096) zeros2]
  exact canon_bands _ _ _

end Cert.KernelIdeal.Pieces

end
-- ==== Proof.Tree.lean ====
/-
  The hierarchical log-softmax, one input row at a time, at the extended reals.

  A row of the input meets three banks of weight rows. Level 0 has 16 classes; level 1 has 16 children under each
  level-0 class; level 2 has 16 children under each of the 256 level-1 classes. In every group of siblings the scores
  (a product sum against the row, plus a bias) go through a log-softmax, and a child's log-probability is its own
  group's log-softmax plus its parent's log-probability.

  The log-softmax is written as both programs compute it: the shift is the larger of the word of minus infinity and
  the group's running maximum started from that word; each entry is shifted, and the log of the sum of the shifted
  entries' exponentials is taken off.

  The two result arrays: the leaves [4096, 4096] (row r, column 16 c + q is child q of level-1 class c), and all three
  levels side by side [4096, 4368] (columns 0..15 level 0, 16..271 level 1 in the order 16 p + q, 272.. the leaves).
-/
import Idealize.ShloMosaic.PureOps.Ideal.Laws
import Idealize.ShloMosaic.Lib.ValueIdx

noncomputable section

namespace Cert.Tree

open Idealize.ShloMosaic Idealize.ShloMosaic.ValueIdx

/-- The extended real the f32 word of minus infinity denotes, kept as the word: both programs start their maxima
    from it, so it is never evaluated. -/
abbrev floorWord : EReal := Ideal.ofBits .f32 0xFF800000#32

/-- The shift of a group of scores: the larger of the floor word and the running maximum started from it. -/
def shift {n : Nat} (v : Fin n → EReal) : EReal :=
  max floorWord ((Finset.univ : Finset (Fin n)).fold max floorWord v)

/-- Log-softmax of a group: the shifted entry less the log of the sum of the shifted entries' exponentials. -/
def logSoftmax {n : Nat} (v : Fin n → EReal) (j : Fin n) : EReal :=
  (v j - shift v) - Ideal.log (∑ k : Fin n, Ideal.exp (v k - shift v))

/-- A row's scores against a bank of weight rows: the product sum plus the bias. -/
def score {n d : Nat} (xr : Fin d → EReal) (w : Fin n → Fin d → EReal) (b : Fin n → EReal) (j : Fin n) : EReal :=
  (∑ k : Fin d, xr k * w j k) + b j

section Levels

variable (xr : Fin 2048 → EReal)
  (w0 : Fin 16 → Fin 2048 → EReal) (b0 : Fin 16 → EReal)
  (w1 : Fin 16 → Fin 16 → Fin 2048 → EReal) (b1 : Fin 16 → Fin 16 → EReal)
  (w2 : Fin 256 → Fin 16 → Fin 2048 → EReal) (b2 : Fin 256 → Fin 16 → EReal)

/-- Level 0: the log-softmax of the 16 top scores. -/
def level0 (j : Fin 16) : EReal := logSoftmax (score xr w0 b0) j

/-- Level 1, child `q` of top class `p`: its group's log-softmax plus the parent's log-probability. -/
def level1 (p q : Fin 16) : EReal := logSoftmax (score xr (w1 p) (b1 p)) q + level0 xr w0 b0 p

/-- Level 1 in its flat order: class `c` is child `c % 16` of top class `c / 16`. -/
def level1Flat (c : Fin 256) : EReal :=
  level1 xr w0 b0 w1 b1 ⟨c.val / 16, by have := c.isLt; omega⟩ ⟨c.val % 16, Nat.mod_lt _ (by norm_num)⟩

/-- Level 2, child `q` of level-1 class `c`. -/
def level2 (c : Fin 256) (q : Fin 16) : EReal :=
  logSoftmax (score xr (w2 c) (b2 c)) q + level1Flat xr w0 b0 w1 b1 c

/-- Level 2 in its flat order: leaf `e` is child `e % 16` of level-1 class `e / 16`. -/
def level2Flat (e : Fin 4096) : EReal :=
  level2 xr w0 b0 w1 b1 w2 b2 ⟨e.val / 16, by have := e.isLt; omega⟩ ⟨e.val % 16, Nat.mod_lt _ (by norm_num)⟩

end Levels

/-! ## The arrays' entries as curried functions -/

/-- Row `r` of a matrix. -/
abbrev rowOf {R D : Nat} (X : (⟨2, ![R, D]⟩ : Shape).Idx → EReal) (r : Fin R) : Fin D → EReal := fun k => X (ix2 r k)
/-- A matrix as a bank of rows. -/
abbrev bank2 {A D : Nat} (W : (⟨2, ![A, D]⟩ : Shape).Idx → EReal) : Fin A → Fin D → EReal := fun j k => W (ix2 j k)
/-- A rank-3 array as banks of rows. -/
abbrev bank3 {A B D : Nat} (W : (⟨3, ![A, B, D]⟩ : Shape).Idx → EReal) : Fin A → Fin B → Fin D → EReal :=
  fun p q k => W (ix3 p q k)
/-- A vector's entries. -/
abbrev vec1 {A : Nat} (b : (⟨1, ![A]⟩ : Shape).Idx → EReal) : Fin A → EReal := fun j => b (ix1 j)

section Arrays

variable (X : (⟨2, ![4096, 2048]⟩ : Shape).Idx → EReal)
  (W0 : (⟨2, ![16, 2048]⟩ : Shape).Idx → EReal) (B0 : (⟨1, ![16]⟩ : Shape).Idx → EReal)
  (W1 : (⟨3, ![16, 16, 2048]⟩ : Shape).Idx → EReal) (B1 : (⟨2, ![16, 16]⟩ : Shape).Idx → EReal)
  (W2 : (⟨3, ![256, 16, 2048]⟩ : Shape).Idx → EReal) (B2 : (⟨2, ![256, 16]⟩ : Shape).Idx → EReal)

/-- Level 0 of row `r`. -/
abbrev top (r : Fin 4096) (j : Fin 16) : EReal := level0 (rowOf X r) (bank2 W0) (vec1 B0) j
/-- Level 1 of row `r`, flat. -/
abbrev mid (r : Fin 4096) (c : Fin 256) : EReal :=
  level1Flat (rowOf X r) (bank2 W0) (vec1 B0) (bank3 W1) (bank2 B1) c
/-- Level 2 of row `r`, flat. -/
abbrev leaf (r : Fin 4096) (e : Fin 4096) : EReal :=
  level2Flat (rowOf X r) (bank2 W0) (vec1 B0) (bank3 W1) (bank2 B1) (bank3 W2) (bank2 B2) e

/-- The leaves array. -/
def leaves : (⟨2, ![4096, 4096]⟩ : Shape).Idx → EReal := fun i => leaf X W0 B0 W1 B1 W2 B2 (i 0) (i 1)

/-- The three levels side by side. -/
def allLevels : (⟨2, ![4096, 4368]⟩ : Shape).Idx → EReal := fun i =>
  if h0 : (i 1).val < 16 then top X W0 B0 (i 0) ⟨(i 1).val, h0⟩
  else if h1 : (i 1).val < 272 then mid X W0 B0 W1 B1 (i 0) ⟨(i 1).val - 16, by omega⟩
  else leaf X W0 B0 W1 B1 W2 B2 (i 0) ⟨(i 1).val - 272, by have := idx2_lt1 i; omega⟩

end Arrays

end Cert.Tree

end
-- ==== Proof.Flat.lean ====
/-
  Flat banks read in groups of 16.

  The kernel meets the level-1 and level-2 weights flattened row-major: row `16 p + q` of the flat [256, D] bank is
  child `q` of class `p`, and likewise for the [4096, D] bank over 256 classes; the biases come as one row, in the same
  order. These accessors read a flat bank, or a flat bias row, back as groups.
-/
import Idealize.ShloMosaic.Lib.ValueIdx

noncomputable section

namespace Cert.Tree

open Idealize.ShloMosaic Idealize.ShloMosaic.ValueIdx

/-- A one-row matrix's entries. -/
abbrev rowVec {n : Nat} (b : (⟨2, ![1, n]⟩ : Shape).Idx → EReal) : Fin n → EReal := fun j => b (ix2 0 j)

/-- Position `16 a + q` among `16 A`. -/
abbrev flat16 {A : Nat} (a : Fin A) (q : Fin 16) : Fin (16 * A) :=
  ⟨16 * a.val + q.val, by have := a.isLt; have := q.isLt; omega⟩

/-- A flat bank [256, D] as 16 banks of 16 rows. -/
abbrev bankOf256 {D : Nat} (W : (⟨2, ![256, D]⟩ : Shape).Idx → EReal) : Fin 16 → Fin 16 → Fin D → EReal :=
  fun p q k => W (ix2 (flat16 (A := 16) p q) k)
/-- A flat bank [4096, D] as 256 banks of 16 rows. -/
abbrev bankOf4096 {D : Nat} (W : (⟨2, ![4096, D]⟩ : Shape).Idx → EReal) : Fin 256 → Fin 16 → Fin D → EReal :=
  fun c q k => W (ix2 (flat16 (A := 256) c q) k)
/-- A flat bias row [1, 256] as 16 groups of 16. -/
abbrev biasOf256 (b : (⟨2, ![1, 256]⟩ : Shape).Idx → EReal) : Fin 16 → Fin 16 → EReal :=
  fun p q => b (ix2 0 (flat16 (A := 16) p q))
/-- A flat bias row [1, 4096] as 256 groups of 16. -/
abbrev biasOf4096 (b : (⟨2, ![1, 4096]⟩ : Shape).Idx → EReal) : Fin 256 → Fin 16 → EReal :=
  fun c q => b (ix2 0 (flat16 (A := 256) c q))

end Cert.Tree

end
-- ==== Proof.Arrays.lean ====
/-
  What the kernel's blocks hold, in terms of the seven arguments as launched.

  Before the region the host re-lays the weights: each bank is flattened row-major (row `16 p + q` of the flat bank is
  row `q` of group `p`) and changes float format, which at the extended reals is the identity; each bias becomes one
  row in the same flat order. The region's grid has 32 points; point `t` stages rows `128 t .. 128 t + 127` of the
  input, and the whole of every weight and bias array.
-/
import proofs.«147709_j412316860848_1_alg».proof.Proof.Gen.KernelIdeal.Value
import proofs.«147709_j412316860848_1_alg».proof.Proof.Tree
import proofs.«147709_j412316860848_1_alg».proof.Proof.Flat
import Idealize.ShloMosaic.Lib.StableHlo.Run
import Idealize.ShloMosaic.Lib.Pipeline.Value
import Idealize.ShloMosaic.Lib.ValueIdx

noncomputable section

namespace Cert.KernelIdeal.Arrays

open Cert.KernelIdeal Cert.KernelIdeal.Gen Cert.Tree
open Idealize.ShloMosaic Idealize.ShloMosaic.TcCoe Idealize.SL.Sem Idealize.ShloMosaic.ValueIdx Idealize.ShloMosaic.StableHlo

variable (m : (ℓ : Loc nD τ sig) → Buf (Elt Ideal) ℓ) (c : Dev nD)

/-! ## The arguments as launched -/

/-- The input rows. -/
abbrev aX : S4096x2048.Idx → EReal := (m ((c : Thread nD τ).loc main_arg0))
/-- The top bank and its bias. -/
abbrev aW0 : S16x2048.Idx → EReal := (m ((c : Thread nD τ).loc main_arg1))
abbrev aB0 : S16.Idx → EReal := (m ((c : Thread nD τ).loc main_arg2))
/-- The level-1 banks and biases. -/
abbrev aW1 : S16x16x2048.Idx → EReal := (m ((c : Thread nD τ).loc main_arg3))
abbrev aB1 : S16x16.Idx → EReal := (m ((c : Thread nD τ).loc main_arg4))
/-- The leaves' banks and biases. -/
abbrev aW2 : S256x16x2048.Idx → EReal := (m ((c : Thread nD τ).loc main_arg5))
abbrev aB2 : S256x16.Idx → EReal := (m ((c : Thread nD τ).loc main_arg6))

/-! ## What the region finds in the arrays the host wrote -/

/-- The top bank after its format change. -/
theorem found_w0 (j : Fin 16) (k : Fin 2048) : V m c main_v0 (ix2 j k) = aW0 m c (ix2 j k) := by
  have e : (V m c main_v0 : S16x2048.Idx → EReal) = truncf (F := Ideal) .bf16 (aW0 m c) bitsLt_bf16_f32 := by
    dsimp only [Gen.V, Gen.hostOps0]; after_results
  rw [e]; rfl

/-- The flat level-1 bank: row `16 p + q` is row `q` of group `p`. -/
theorem found_w1 (p q : Fin 16) (k : Fin 2048) : V m c main_v2 (ix2 (flat16 (A := 16) p q) k) = aW1 m c (ix3 p q k) := by
  have e : (V m c main_v2 : S256x2048.Idx → EReal)
      = truncf (F := Ideal) .bf16 (shapeCast S256x2048 (aW1 m c) shapeCasts_S16x16x2048_S256x2048) bitsLt_bf16_f32 := by
    dsimp only [Gen.V, Gen.hostOps0]; after_results; rfl
  rw [e]
  show shapeCast S256x2048 (aW1 m c) shapeCasts_S16x16x2048_S256x2048 (ix2 (flat16 (A := 16) p q) k) = _
  refine shapeCast_apply _ _ _ _ ?_
  rw [Shape.rowMajor_val_three, Shape.rowMajor_val_two]
  show (p.val * 16 + q.val) * 2048 + k.val = (16 * p.val + q.val) * 2048 + k.val
  omega

/-- The flat leaves' bank. -/
theorem found_w2 (p : Fin 256) (q : Fin 16) (k : Fin 2048) : V m c main_v4 (ix2 (flat16 (A := 256) p q) k) = aW2 m c (ix3 p q k) := by
  have e : (V m c main_v4 : S4096x2048.Idx → EReal)
      = truncf (F := Ideal) .bf16 (shapeCast S4096x2048 (aW2 m c) shapeCasts_S256x16x2048_S4096x2048) bitsLt_bf16_f32 := by
    dsimp only [Gen.V, Gen.hostOps0]; after_results; rfl
  rw [e]
  show shapeCast S4096x2048 (aW2 m c) shapeCasts_S256x16x2048_S4096x2048 (ix2 (flat16 (A := 256) p q) k) = _
  refine shapeCast_apply _ _ _ _ ?_
  rw [Shape.rowMajor_val_three, Shape.rowMajor_val_two]
  show (p.val * 16 + q.val) * 2048 + k.val = (16 * p.val + q.val) * 2048 + k.val
  omega

/-- The top bias as one row. -/
theorem found_b0 (j : Fin 16) : V m c main_v5 (ix2 0 j) = aB0 m c (ix1 j) := by
  have e : (V m c main_v5 : S1x16.Idx → EReal) = shapeCast S1x16 (aB0 m c) shapeCasts_S16_S1x16 := by
    dsimp only [Gen.V, Gen.hostOps0]; after_results; rfl
  rw [e]
  refine shapeCast_apply _ _ _ _ ?_
  rw [Shape.rowMajor_val_one, Shape.rowMajor_val_two]
  show j.val = 0 * 16 + j.val
  omega

/-- The level-1 biases as one row, flat. -/
theorem found_b1 (p q : Fin 16) : V m c main_v6 (ix2 0 (flat16 (A := 16) p q)) = aB1 m c (ix2 p q) := by
  have e : (V m c main_v6 : S1x256.Idx → EReal) = shapeCast S1x256 (aB1 m c) shapeCasts_S16x16_S1x256 := by
    dsimp only [Gen.V, Gen.hostOps0]; after_results; rfl
  rw [e]
  refine shapeCast_apply _ _ _ _ ?_
  rw [Shape.rowMajor_val_two, Shape.rowMajor_val_two]
  show p.val * 16 + q.val = 0 * 256 + (16 * p.val + q.val)
  omega

/-- The leaves' biases as one row, flat. -/
theorem found_b2 (p : Fin 256) (q : Fin 16) : V m c main_v7 (ix2 0 (flat16 (A := 256) p q)) = aB2 m c (ix2 p q) := by
  have e : (V m c main_v7 : S1x4096.Idx → EReal) = shapeCast S1x4096 (aB2 m c) shapeCasts_S256x16_S1x4096 := by
    dsimp only [Gen.V, Gen.hostOps0]; after_results; rfl
  rw [e]
  refine shapeCast_apply _ _ _ _ ?_
  rw [Shape.rowMajor_val_two, Shape.rowMajor_val_two]
  show p.val * 16 + q.val = 0 * 4096 + (16 * p.val + q.val)
  omega

/-! ## The blocks a grid point stages -/

/-- Where each window's block sits at point `t`: the input's and the two outputs' at block row `t`, every weight and bias
    array whole (decided over the 32 points). -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

variable (t : Fin cfg0.N)

/-- The blocks at point `t`, at their literal types. -/
abbrev blk0 : Vec Ideal S128x2048 .f32 := iblk m c 0 t
abbrev blk1 : Vec Ideal S16x2048 .bf16 := iblk m c 1 t
abbrev blk2 : Vec Ideal S1x16 .f32 := iblk m c 2 t
abbrev blk3 : Vec Ideal S256x2048 .bf16 := iblk m c 3 t
abbrev blk4 : Vec Ideal S1x256 .f32 := iblk m c 4 t
abbrev blk5 : Vec Ideal S4096x2048 .bf16 := iblk m c 5 t
abbrev blk6 : Vec Ideal S1x4096 .f32 := iblk m c 6 t

/-- Row `r` of point `t`'s input block is row `128 t + r` of the input. -/
theorem blk0_at (r : Fin 128) (k : Fin 2048) :
    blk0 m c t (ix2 r k) = aX m c (ix2 ⟨128 * t.val + r.val, by have := t.isLt; have := r.isLt; have : cfg0.N = 32 := N_0; omega⟩ k) := by
  obtain ⟨⟨e0, e1⟩, -⟩ := index_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 128 + 1 * r.val = 128 * t.val + r.val; omega
  | ⟨1, _⟩ => show win0_0.index t (1 : Fin 2) * 2048 + 1 * k.val = k.val; omega

/-- The top bank is staged whole. -/
theorem blk1_eq (y : S16x2048.Idx) : blk1 m c t y = V m c main_v0 y := by
  obtain ⟨-, ⟨e0, e1⟩, -⟩ := index_facts t
  show V m c main_v0 (((cfg0.win 1).blk t).view.emb y) = _
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 2048 + 1 * (y 1).val = (y 1).val; omega

/-- The top bias row is staged whole. -/
theorem blk2_eq (y : S1x16.Idx) : blk2 m c t y = V m c main_v5 y := by
  obtain ⟨-, -, ⟨e0, e1⟩, -⟩ := index_facts t
  show V m c main_v5 (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega

/-- The flat level-1 bank is staged whole. -/
theorem blk3_eq (y : S256x2048.Idx) : blk3 m c t y = V m c main_v2 y := by
  obtain ⟨-, -, -, ⟨e0, e1⟩, -⟩ := index_facts t
  show V m c main_v2 (((cfg0.win 3).blk t).view.emb y) = _
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 2048 + 1 * (y 1).val = (y 1).val; omega

/-- The level-1 bias row is staged whole. -/
theorem blk4_eq (y : S1x256.Idx) : blk4 m c t y = V m c main_v6 y := by
  obtain ⟨-, -, -, -, ⟨e0, e1⟩, -⟩ := index_facts t
  show V m c main_v6 (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The flat leaves' bank is staged whole. -/
theorem blk5_eq (y : S4096x2048.Idx) : blk5 m c t y = V m c main_v4 y := by
  obtain ⟨-, -, -, -, -, ⟨e0, e1⟩, -⟩ := index_facts t
  show V m c main_v4 (((cfg0.win 5).blk t).view.emb y) = _
  refine congrArg _ (funext fun a => Fin.ext ?_)
  match a with
  | ⟨0, _⟩ => show win0_5.index t (0 : Fin 2) * 4096 + 1 * (y 0).val = (y 0).val; omega
  | ⟨1, _⟩ => show win0_5.index t (1 : Fin 2) * 2048 + 1 * (y 1).val = (y 1).val; omega

/-- The leaves' bias row is staged whole. -/
theorem blk6_eq (y : S1x4096.Idx) : blk6 m c t y = V m c main_v7 y := by
  obtain ⟨-, -, -, -, -, -, ⟨e0, e1⟩, -⟩ := index_facts t
  show V m c main_v7 (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 4096 + 1 * (y 1).val = (y 1).val; omega

/-! ## The blocks' entries as the curried accessors of the row-wise statement -/

/-- Row `r` of the block is row `128 t + r` of the input. -/
theorem rows_eq (r : Fin 128) :
    rowOf (blk0 m c t) r = rowOf (aX m c) ⟨128 * t.val + r.val, by have := t.isLt; have := r.isLt; have : cfg0.N = 32 := N_0; omega⟩ :=
  funext fun k => blk0_at m c t r k

theorem bank0_eq : bank2 (blk1 m c t) = bank2 (aW0 m c) :=
  funext fun j => funext fun k => (blk1_eq m c t _).trans (found_w0 m c j k)

theorem bias0_eq : rowVec (blk2 m c t) = vec1 (aB0 m c) :=
  funext fun j => (blk2_eq m c t _).trans (found_b0 m c j)

theorem bank1_eq : bankOf256 (blk3 m c t) = bank3 (aW1 m c) :=
  funext fun p => funext fun q => funext fun k => (blk3_eq m c t _).trans (found_w1 m c p q k)

theorem bias1_eq : biasOf256 (blk4 m c t) = bank2 (aB1 m c) :=
  funext fun p => funext fun q => (blk4_eq m c t _).trans (found_b1 m c p q)

theorem bank2_eq : bankOf4096 (blk5 m c t) = bank3 (aW2 m c) :=
  funext fun p => funext fun q => funext fun k => (blk5_eq m c t _).trans (found_w2 m c p q k)

theorem bias2_eq : biasOf4096 (blk6 m c t) = bank2 (aB2 m c) :=
  funext fun p => funext fun q => (blk6_eq m c t _).trans (found_b2 m c p q)

end Cert.KernelIdeal.Arrays

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibGroups.lean ====
/-
  Rank-3 vectors read group by group, a matrix against a bank of rows, and the lane log-softmax a program computes, at
  the extended reals and for any sizes.

    * the product [M, K] × [N, K] that contracts the last axis of BOTH operands, into a zero accumulator, at (p, q):
      ∑ₖ a(p, k) · b(q, k); with a bias row [1, N] broadcast over the rows and added: the scores of row p against the
      bank's row q;
    * a sum over the lanes (axis 2) of an [A, B, C] vector, at (p, q): ∑ₖ v(p, q, k);
    * a maximum over the lanes, at (p, q): the fold of max from the starting word's value over v(p, q, ·);
    * the cast of an [A, B] vector to [A, B, 1], at (p, q, u): the vector at (p, q);
    * the broadcast of an [A, B, 1] vector along the lanes to [A, B, C], at (p, q, k): the vector at (p, q, 0);
    * the casts between [A, N] and [A, B, C] when N = B · C: position (p, q, k) is position (p, q · C + k);
    * the log-softmax over the lanes as a program computes it — the shift is the larger of the starting word and the
      running maximum started from it; each entry is shifted; the log of the sum of the shifted entries' exponentials
      is taken off — at rank 2 (lanes = axis 1) and rank 3 (lanes = axis 2), read at an index;
    * a child level: a rank-3 vector plus its parent [A, B] broadcast along the lanes, flattened to [A, N].
-/
import Idealize.ShloMosaic.PureOps.Ideal.Laws
import Idealize.ShloMosaic.Lib.ValueIdx
import Idealize.ShloMosaic.Lib.ValueLayout
import Idealize.ShloMosaic.Lib.Pipeline.Value
import proofs.«147709_j412316860848_1_alg».proof.Proof.LibRowwise

noncomputable section

namespace Cert.Lib.Groups

open Idealize.ShloMosaic Idealize.ShloMosaic.ValueIdx

/-! ## Exponential and logarithm at an index -/

section Pointwise
variable {s : Shape} {φ : FTy}

theorem exp_apply (a : FVec Ideal s φ) (i : s.Idx) : exp a i = Ideal.exp (a i) := rfl
theorem log_apply (a : FVec Ideal s φ) (i : s.Idx) : log a i = Ideal.log (a i) := rfl

end Pointwise

/-! ## A matrix against a bank of rows -/

section Bank

variable {M K N : Nat}

/-- A record over [M, K], [N, K], [M, N] whose six lists are those of the product contracting both last axes is
    that record. -/
theorem eq_transposedRhs (D : DotDims ⟨2, ![M, K]⟩ ⟨2, ![N, K]⟩ ⟨2, ![M, N]⟩) (h1 : D.lhsContracting = [1])
    (h2 : D.rhsContracting = [1]) (h3 : D.lhsNonContracting = [0]) (h4 : D.rhsNonContracting = [0])
    (h5 : D.lhsBatch = []) (h6 : D.rhsBatch = []) : D = DotDims.transposedRhs M K N := by
  cases D
  simp only at h1 h2 h3 h4 h5 h6
  subst h1 h2 h3 h4 h5 h6
  rfl

theorem bank_lhs0 (j : (⟨2, ![M, N]⟩ : Shape).Idx) (q : (DotDims.transposedRhs M K N).contr.Idx) :
    ((DotDims.transposedRhs M K N).lhsIdx j q 0).val = (j 0).val := rfl
theorem bank_lhs1 (j : (⟨2, ![M, N]⟩ : Shape).Idx) (q : (DotDims.transposedRhs M K N).contr.Idx) :
    ((DotDims.transposedRhs M K N).lhsIdx j q 1).val = (q ⟨0, Nat.one_pos⟩).val := rfl
theorem bank_rhs0 (j : (⟨2, ![M, N]⟩ : Shape).Idx) (q : (DotDims.transposedRhs M K N).contr.Idx) :
    ((DotDims.transposedRhs M K N).rhsIdx j q 0).val = (j 1).val := rfl
theorem bank_rhs1 (j : (⟨2, ![M, N]⟩ : Shape).Idx) (q : (DotDims.transposedRhs M K N).contr.Idx) :
    ((DotDims.transposedRhs M K N).rhsIdx j q 1).val = (q ⟨0, Nat.one_pos⟩).val := rfl

/-- The product against a bank into the zero word, read at (p, q): the sum over the contracted coordinate, the bank
    read at (q, k). -/
theorem bank_matmul_zero_apply {φ₁ φ₂ : FTy} (prec : Option ContractPrecision) (a : FVec Ideal ⟨2, ![M, K]⟩ φ₁)
    (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k :=
    funext fun a => Fin.ext (by
      match a with
      | ⟨0, _⟩ => exact bank_lhs0 _ _
      | ⟨1, _⟩ => exact (bank_lhs1 _ _).trans hk)
  have er : (DotDims.transposedRhs M K N).rhsIdx (ix2 p q) ((contrEquiv1 (DotDims.transposedRhs M K N) K rfl rfl).symm k)
      = ix2 q k :=
    funext fun a => Fin.ext (by
      match a with
      | ⟨0, _⟩ => exact bank_rhs0 _ _
      | ⟨1, _⟩ => exact (bank_rhs1 _ _).trans hk)
  rw [el, er]

/-- The scores of a block of rows against a bank, as a program computes them: the product into the zero word plus the
    bias row broadcast over the rows (the bank and the bias each first cast to their own shape). -/
def blockScores {φ₁ φ₂ : FTy} (D : DotDims ⟨2, ![M, K]⟩ ⟨2, ![N, K]⟩ ⟨2, ![M, N]⟩) (prec : Option ContractPrecision)
    (a : FVec Ideal ⟨2, ![M, K]⟩ φ₁) (w : FVec Ideal ⟨2, ![N, K]⟩ φ₂) (b : FVec Ideal ⟨2, ![1, N]⟩ .f32)
    (hw : (⟨2, ![N, K]⟩ : Shape).ShapeCasts ⟨2, ![N, K]⟩) (hb : (⟨2, ![1, N]⟩ : Shape).ShapeCasts ⟨2, ![1, N]⟩)
    (hbb : (⟨2, ![1, N]⟩ : Shape).Broadcasts ⟨2, ![M, N]⟩) : FVec Ideal ⟨2, ![M, N]⟩ .f32 :=
  addf (matmul D prec a (shapeCast ⟨2, ![N, K]⟩ w hw) (constant ⟨2, ![M, N]⟩ .f32 0x00000000#32))
    (broadcastTo ⟨2, ![M, N]⟩ (shapeCast ⟨2, ![1, N]⟩ b hb) hbb)

/-- The scores at (p, q): the product sum of row p with the bank's row q, plus the bias at q. -/
theorem blockScores_apply {φ₁ φ₂ : FTy} (D : DotDims ⟨2, ![M, K]⟩ ⟨2, ![N, K]⟩ ⟨2, ![M, N]⟩)
    (hD : D = DotDims.transposedRhs M K N) (prec : Option ContractPrecision)
    (a : FVec Ideal ⟨2, ![M, K]⟩ φ₁) (w : FVec Ideal ⟨2, ![N, K]⟩ φ₂) (b : FVec Ideal ⟨2, ![1, N]⟩ .f32)
    (hw : (⟨2, ![N, K]⟩ : Shape).ShapeCasts ⟨2, ![N, K]⟩) (hb : (⟨2, ![1, N]⟩ : Shape).ShapeCasts ⟨2, ![1, N]⟩)
    (hbb : (⟨2, ![1, N]⟩ : Shape).Broadcasts ⟨2, ![M, N]⟩) (p : Fin M) (q : Fin N) :
    blockScores D prec a w b hw hb hbb (ix2 p q) = (∑ k : Fin K, a (ix2 p k) * w (ix2 q k)) + b (ix2 0 q) := by
  subst hD
  unfold blockScores
  rw [addf_apply, shapeCast_self, shapeCast_self, broadcastTo_1b_ab_apply]
  exact congrArg (· + b (ix2 0 q)) (bank_matmul_zero_apply prec a w p q)

end Bank

/-! ## Lane reductions at rank 3 -/

section Lanes

variable {A B C : Nat} {φ : FTy}

/-- Position (p, q) with lane k put back is (p, q, k). -/
theorem lift_group (h : (⟨3, ![A, B, C]⟩ : Shape).Reduces [2] ⟨2, ![A, B]⟩) (p : Fin A) (q : Fin B) (k : Fin C) :
    h.lift (ix2 p q) k = ix3 p q k :=
  funext fun a => Fin.ext (by match a with | ⟨0, _⟩ => rfl | ⟨1, _⟩ => rfl | ⟨2, _⟩ => rfl)

/-- A lane sum at (p, q). -/
theorem groupSum_apply (src : FVec Ideal ⟨3, ![A, B, C]⟩ φ) (acc : BitVec φ.bits)
    (h : (⟨3, ![A, B, C]⟩ : Shape).Reduces [2] ⟨2, ![A, B]⟩) (hφ : FKind.Formats φ) (hacc : acc = FKind.add.neutral φ hφ)
    (p : Fin A) (q : Fin B) :
    multiReduction .add [2] ⟨2, ![A, B]⟩ src acc h hφ hacc (ix2 p q) = ∑ k : Fin C, src (ix3 p q k) := by
  rw [Ideal.multiReduction_add_single]
  exact Finset.sum_congr rfl fun k _ => congrArg src (lift_group h p q k)

/-- A lane maximum at (p, q): the fold of max from the starting word's value. -/
theorem groupMax_apply (src : FVec Ideal ⟨3, ![A, B, C]⟩ φ) (acc : BitVec φ.bits)
    (h : (⟨3, ![A, B, C]⟩ : Shape).Reduces [2] ⟨2, ![A, B]⟩) (hφ : FKind.Formats φ)
    (hacc : acc = FKind.maximumf.neutral φ hφ) (p : Fin A) (q : Fin B) :
    multiReduction .maximumf [2] ⟨2, ![A, B]⟩ src acc h hφ hacc (ix2 p q)
      = (Finset.univ : Finset (Fin C)).fold max (Ideal.ofBits φ acc) (fun k => src (ix3 p q k)) := by
  rw [Ideal.multiReduction_maximumf_single]
  have e : (src ∘ h.lift (ix2 p q)) = fun k => src (ix3 p q k) := funext fun k => congrArg src (lift_group h p q k)
  rw [e]
  rfl

end Lanes

/-! ## Casts and broadcasts at rank 3 -/

section Layout

variable {A B C N : Nat} {α : Type}

/-- An [A, B] vector cast to [A, B, 1] reads, at (p, q, u), the vector at (p, q). -/
theorem unitLane_apply (v : (⟨2, ![A, B]⟩ : Shape).Idx → α) (h : (⟨2, ![A, B]⟩ : Shape).ShapeCasts ⟨3, ![A, B, 1]⟩)
    (p : Fin A) (q : Fin B) (u : Fin 1) : shapeCast ⟨3, ![A, B, 1]⟩ v h (ix3 p q u) = v (ix2 p q) := by
  refine shapeCast_apply v h (ix3 p q u) (ix2 p q) ?_
  rw [Shape.rowMajor_val_two, Shape.rowMajor_val_three]
  have hu : u.val = 0 := by omega
  show p.val * B + q.val = (p.val * B + q.val) * 1 + u.val
  omega

/-- An [A, B, 1] vector broadcast along the lanes reads, at (p, q, k), the vector at (p, q, 0). -/
theorem laneBroadcast_apply (v : (⟨3, ![A, B, 1]⟩ : Shape).Idx → α)
    (h : (⟨3, ![A, B, 1]⟩ : Shape).Broadcasts ⟨3, ![A, B, C]⟩) (p : Fin A) (q : Fin B) (k : Fin C) :
    broadcastTo ⟨3, ![A, B, C]⟩ v h (ix3 p q k) = v (ix3 p q 0) := by
  refine broadcastTo_apply v h (ix3 p q k) (ix3 p q 0) fun a => ?_
  match a with
  | ⟨0, _⟩ =>
    show p.val = if A = 1 then 0 else p.val
    split
    · have := p.isLt; omega
    · rfl
  | ⟨1, _⟩ =>
    show q.val = if B = 1 then 0 else q.val
    split
    · have := q.isLt; omega
    · rfl
  | ⟨2, _⟩ => exact (if_pos rfl).symm

/-- An [A, N] vector cast to [A, B, C] reads, at (p, q, k), the vector at (p, c) when c = q · C + k. -/
theorem split_apply (v : (⟨2, ![A, N]⟩ : Shape).Idx → α) (h : (⟨2, ![A, N]⟩ : Shape).ShapeCasts ⟨3, ![A, B, C]⟩)
    (hN : N = B * C) (p : Fin A) (q : Fin B) (k : Fin C) (c : Fin N) (hc : c.val = q.val * C + k.val) :
    shapeCast ⟨3, ![A, B, C]⟩ v h (ix3 p q k) = v (ix2 p c) := by
  refine shapeCast_apply v h (ix3 p q k) (ix2 p c) ?_
  rw [Shape.rowMajor_val_two, Shape.rowMajor_val_three]
  show p.val * N + c.val = (p.val * B + q.val) * C + k.val
  rw [hc, hN, Nat.add_mul, Nat.mul_assoc, Nat.add_assoc]

/-- An [A, B, C] vector cast to [A, N] reads, at (p, c), the vector at (p, q, k) when c = q · C + k. -/
theorem merge_apply (v : (⟨3, ![A, B, C]⟩ : Shape).Idx → α) (h : (⟨3, ![A, B, C]⟩ : Shape).ShapeCasts ⟨2, ![A, N]⟩)
    (hN : N = B * C) (p : Fin A) (q : Fin B) (k : Fin C) (c : Fin N) (hc : c.val = q.val * C + k.val) :
    shapeCast ⟨2, ![A, N]⟩ v h (ix2 p c) = v (ix3 p q k) := by
  refine shapeCast_apply v h (ix2 p c) (ix3 p q k) ?_
  rw [Shape.rowMajor_val_two, Shape.rowMajor_val_three]
  show (p.val * B + q.val) * C + k.val = p.val * N + c.val
  rw [hc, hN, Nat.add_mul, Nat.mul_assoc, Nat.add_assoc]

end Layout

/-! ## The lane log-softmax -/

/-- The shift of a group of entries from a starting value: the larger of the starting value and the running maximum
    started from it. -/
def laneShift {n : Nat} (w : EReal) (v : Fin n → EReal) : EReal := max w ((Finset.univ : Finset (Fin n)).fold max w v)

/-- The log-softmax of a group with that shift: the shifted entry less the log of the sum of the shifted entries'
    exponentials. -/
def laneLogSoftmax {n : Nat} (w : EReal) (v : Fin n → EReal) (j : Fin n) : EReal :=
  (v j - laneShift w v) - Ideal.log (∑ k : Fin n, Ideal.exp (v k - laneShift w v))

/-- f32 is a format the lane reductions are compiled at. -/
theorem formats_f32 : FKind.Formats .f32 := .inl rfl
/-- The f32 word of minus infinity is the lane maximum's starting word. -/
theorem negInf_neutral : (0xFF800000#32 : BitVec FTy.f32.bits) = FKind.maximumf.neutral .f32 formats_f32 := rfl
/-- The f32 zero word is the lane sum's starting word. -/
theorem zero_neutral : (0x00000000#32 : BitVec FTy.f32.bits) = FKind.add.neutral .f32 formats_f32 := rfl

section Rank2

variable {A B : Nat}

/-- The shift of every row, as a program computes it: the larger of the splat of the starting word and the lane
    maximum started from the same word. -/
def rowShift (z : FVec Ideal ⟨2, ![A, B]⟩ .f32) (hr : (⟨2, ![A, B]⟩ : Shape).Reduces [1] ⟨1, ![A]⟩) :
    FVec Ideal ⟨1, ![A]⟩ .f32 :=
  maximumf (broadcast ⟨1, ![A]⟩ (Scalar.ofBits (F := Ideal) .f32 0xFF800000#32))
    (multiReduction (F := Ideal) .maximumf [1] ⟨1, ![A]⟩ z 0xFF800000#32 hr formats_f32 negInf_neutral)

/-- The shifted entries: each row less its shift, the shift cast to a column and broadcast along the lanes. -/
def rowShifted (z : FVec Ideal ⟨2, ![A, B]⟩ .f32) (hr : (⟨2, ![A, B]⟩ : Shape).Reduces [1] ⟨1, ![A]⟩)
    (hc : (⟨1, ![A]⟩ : Shape).ShapeCasts ⟨2, ![A, 1]⟩) (hb : (⟨2, ![A, 1]⟩ : Shape).Broadcasts ⟨2, ![A, B]⟩) :
    FVec Ideal ⟨2, ![A, B]⟩ .f32 :=
  subf z (broadcastTo ⟨2, ![A, B]⟩ (shapeCast ⟨2, ![A, 1]⟩ (rowShift z hr) hc) hb)

/-- The row-wise log-softmax as a program computes it. -/
def rowLogSoftmax (z : FVec Ideal ⟨2, ![A, B]⟩ .f32) (hr : (⟨2, ![A, B]⟩ : Shape).Reduces [1] ⟨1, ![A]⟩)
    (hc : (⟨1, ![A]⟩ : Shape).ShapeCasts ⟨2, ![A, 1]⟩) (hb : (⟨2, ![A, 1]⟩ : Shape).Broadcasts ⟨2, ![A, B]⟩) :
    FVec Ideal ⟨2, ![A, B]⟩ .f32 :=
  subf (rowShifted z hr hc hb)
    (broadcastTo ⟨2, ![A, B]⟩
      (log (shapeCast ⟨2, ![A, 1]⟩
        (multiReduction (F := Ideal) .add [1] ⟨1, ![A]⟩ (exp (rowShifted z hr hc hb)) 0x00000000#32 hr formats_f32 zero_neutral) hc)) hb)

theorem rowShift_apply (z : FVec Ideal ⟨2, ![A, B]⟩ .f32) (hr : (⟨2, ![A, B]⟩ : Shape).Reduces [1] ⟨1, ![A]⟩) (p : Fin A) :
    rowShift z hr (ix1 p) = laneShift (Ideal.ofBits .f32 0xFF800000#32) (fun k => z (ix2 p k)) := by
  unfold rowShift laneShift
  rw [maximumf_apply, broadcast_apply, Cert.Lib.Rowwise.laneMax_apply]
  rfl

theorem rowShifted_apply (z : FVec Ideal ⟨2, ![A, B]⟩ .f32) (hr : (⟨2, ![A, B]⟩ : Shape).Reduces [1] ⟨1, ![A]⟩)
    (hc : (⟨1, ![A]⟩ : Shape).ShapeCasts ⟨2, ![A, 1]⟩) (hb : (⟨2, ![A, 1]⟩ : Shape).Broadcasts ⟨2, ![A, B]⟩)
    (hA : A ≠ 1) (p : Fin A) (k : Fin B) :
    rowShifted z hr hc hb (ix2 p k)
      = z (ix2 p k) - laneShift (Ideal.ofBits .f32 0xFF800000#32) (fun k' => z (ix2 p k')) := by
  unfold rowShifted
  rw [subf_apply, Cert.Lib.Rowwise.columnBroadcast_apply _ hb hA, Cert.Lib.Rowwise.column_apply, rowShift_apply]

/-- The row-wise log-softmax at (p, j): the lane log-softmax of row p, from the f32 word of minus infinity. -/
theorem rowLogSoftmax_apply (z : FVec Ideal ⟨2, ![A, B]⟩ .f32) (hr : (⟨2, ![A, B]⟩ : Shape).Reduces [1] ⟨1, ![A]⟩)
    (hc : (⟨1, ![A]⟩ : Shape).ShapeCasts ⟨2, ![A, 1]⟩) (hb : (⟨2, ![A, 1]⟩ : Shape).Broadcasts ⟨2, ![A, B]⟩)
    (hA : A ≠ 1) (p : Fin A) (j : Fin B) :
    rowLogSoftmax z hr hc hb (ix2 p j)
      = laneLogSoftmax (Ideal.ofBits .f32 0xFF800000#32) (fun k => z (ix2 p k)) j := by
  unfold rowLogSoftmax laneLogSoftmax
  rw [subf_apply, rowShifted_apply z hr hc hb hA, Cert.Lib.Rowwise.columnBroadcast_apply _ hb hA, log_apply,
    Cert.Lib.Rowwise.column_apply, Cert.Lib.Rowwise.laneSum_apply]
  refine congrArg (fun t => _ - Ideal.log t) (Finset.sum_congr rfl fun k _ => ?_)
  rw [exp_apply, rowShifted_apply z hr hc hb hA]

end Rank2

section Rank3

variable {A B C : Nat}

/-- The shift of every group. -/
def groupShift (z : FVec Ideal ⟨3, ![A, B, C]⟩ .f32) (hr : (⟨3, ![A, B, C]⟩ : Shape).Reduces [2] ⟨2, ![A, B]⟩) :
    FVec Ideal ⟨2, ![A, B]⟩ .f32 :=
  maximumf (broadcast ⟨2, ![A, B]⟩ (Scalar.ofBits (F := Ideal) .f32 0xFF800000#32))
    (multiReduction (F := Ideal) .maximumf [2] ⟨2, ![A, B]⟩ z 0xFF800000#32 hr formats_f32 negInf_neutral)

/-- The shifted entries: each group less its shift, the shift given a unit lane axis and broadcast along the lanes. -/
def groupShifted (z : FVec Ideal ⟨3, ![A, B, C]⟩ .f32) (hr : (⟨3, ![A, B, C]⟩ : Shape).Reduces [2] ⟨2, ![A, B]⟩)
    (hc : (⟨2, ![A, B]⟩ : Shape).ShapeCasts ⟨3, ![A, B, 1]⟩) (hb : (⟨3, ![A, B, 1]⟩ : Shape).Broadcasts ⟨3, ![A, B, C]⟩) :
    FVec Ideal ⟨3, ![A, B, C]⟩ .f32 :=
  subf z (broadcastTo ⟨3, ![A, B, C]⟩ (shapeCast ⟨3, ![A, B, 1]⟩ (groupShift z hr) hc) hb)

/-- The group-wise log-softmax as a program computes it. -/
def groupLogSoftmax (z : FVec Ideal ⟨3, ![A, B, C]⟩ .f32) (hr : (⟨3, ![A, B, C]⟩ : Shape).Reduces [2] ⟨2, ![A, B]⟩)
    (hc : (⟨2, ![A, B]⟩ : Shape).ShapeCasts ⟨3, ![A, B, 1]⟩) (hb : (⟨3, ![A, B, 1]⟩ : Shape).Broadcasts ⟨3, ![A, B, C]⟩) :
    FVec Ideal ⟨3, ![A, B, C]⟩ .f32 :=
  subf (groupShifted z hr hc hb)
    (broadcastTo ⟨3, ![A, B, C]⟩
      (log (shapeCast ⟨3, ![A, B, 1]⟩
        (multiReduction (F := Ideal) .add [2] ⟨2, ![A, B]⟩ (exp (groupShifted z hr hc hb)) 0x00000000#32 hr formats_f32 zero_neutral)
        hc)) hb)

theorem groupShift_apply (z : FVec Ideal ⟨3, ![A, B, C]⟩ .f32) (hr : (⟨3, ![A, B, C]⟩ : Shape).Reduces [2] ⟨2, ![A, B]⟩)
    (p : Fin A) (q : Fin B) :
    groupShift z hr (ix2 p q) = laneShift (Ideal.ofBits .f32 0xFF800000#32) (fun k => z (ix3 p q k)) := by
  unfold groupShift laneShift
  rw [maximumf_apply, broadcast_apply, groupMax_apply]
  rfl

theorem groupShifted_apply (z : FVec Ideal ⟨3, ![A, B, C]⟩ .f32) (hr : (⟨3, ![A, B, C]⟩ : Shape).Reduces [2] ⟨2, ![A, B]⟩)
    (hc : (⟨2, ![A, B]⟩ : Shape).ShapeCasts ⟨3, ![A, B, 1]⟩) (hb : (⟨3, ![A, B, 1]⟩ : Shape).Broadcasts ⟨3, ![A, B, C]⟩)
    (p : Fin A) (q : Fin B) (k : Fin C) :
    groupShifted z hr hc hb (ix3 p q k)
      = z (ix3 p q k) - laneShift (Ideal.ofBits .f32 0xFF800000#32) (fun k' => z (ix3 p q k')) := by
  unfold groupShifted
  rw [subf_apply, laneBroadcast_apply, unitLane_apply, groupShift_apply]

/-- The group-wise log-softmax at (p, q, j): the lane log-softmax of group (p, q), from the f32 word of minus
    infinity. -/
theorem groupLogSoftmax_apply (z : FVec Ideal ⟨3, ![A, B, C]⟩ .f32)
    (hr : (⟨3, ![A, B, C]⟩ : Shape).Reduces [2] ⟨2, ![A, B]⟩) (hc : (⟨2, ![A, B]⟩ : Shape).ShapeCasts ⟨3, ![A, B, 1]⟩)
    (hb : (⟨3, ![A, B, 1]⟩ : Shape).Broadcasts ⟨3, ![A, B, C]⟩) (p : Fin A) (q : Fin B) (j : Fin C) :
    groupLogSoftmax z hr hc hb (ix3 p q j)
      = laneLogSoftmax (Ideal.ofBits .f32 0xFF800000#32) (fun k => z (ix3 p q k)) j := by
  unfold groupLogSoftmax laneLogSoftmax
  rw [subf_apply, groupShifted_apply, laneBroadcast_apply, log_apply, unitLane_apply, groupSum_apply]
  refine congrArg (fun t => _ - Ideal.log t) (Finset.sum_congr rfl fun k _ => ?_)
  rw [exp_apply, groupShifted_apply]

/-! ## A child level -/

variable {N : Nat}

/-- A rank-3 vector plus its parent, the parent given a unit lane axis and broadcast along the lanes; then flattened. -/
def withParent (g : FVec Ideal ⟨3, ![A, B, C]⟩ .f32) (par : FVec Ideal ⟨2, ![A, B]⟩ .f32)
    (hc : (⟨2, ![A, B]⟩ : Shape).ShapeCasts ⟨3, ![A, B, 1]⟩) (hb : (⟨3, ![A, B, 1]⟩ : Shape).Broadcasts ⟨3, ![A, B, C]⟩)
    (hm : (⟨3, ![A, B, C]⟩ : Shape).ShapeCasts ⟨2, ![A, N]⟩) : FVec Ideal ⟨2, ![A, N]⟩ .f32 :=
  shapeCast ⟨2, ![A, N]⟩ (addf g (broadcastTo ⟨3, ![A, B, C]⟩ (shapeCast ⟨3, ![A, B, 1]⟩ par hc) hb)) hm

/-- At (p, c) with c = q · C + k: the child at (p, q, k) plus the parent at (p, q). -/
theorem withParent_apply (g : FVec Ideal ⟨3, ![A, B, C]⟩ .f32) (par : FVec Ideal ⟨2, ![A, B]⟩ .f32)
    (hc : (⟨2, ![A, B]⟩ : Shape).ShapeCasts ⟨3, ![A, B, 1]⟩) (hb : (⟨3, ![A, B, 1]⟩ : Shape).Broadcasts ⟨3, ![A, B, C]⟩)
    (hm : (⟨3, ![A, B, C]⟩ : Shape).ShapeCasts ⟨2, ![A, N]⟩) (hN : N = B * C) (p : Fin A) (q : Fin B) (k : Fin C)
    (c : Fin N) (hcv : c.val = q.val * C + k.val) :
    withParent g par hc hb hm (ix2 p c) = g (ix3 p q k) + par (ix2 p q) := by
  unfold withParent
  rw [merge_apply _ hm hN p q k c hcv, addf_apply, laneBroadcast_apply, unitLane_apply]

end Rank3

end Cert.Lib.Groups

end
-- ==== Proof.KernelLevels.lean ====
/-
  The kernel's stored values, read at an index, are the levels of the hierarchical log-softmax of the block's rows.

  Each value the kernel stores is an instance of a chain of vector operations that is generic in the sizes
  (LibGroups.lean): the scores of a block of rows against a bank (the product contracting both last axes into the zero
  word, plus the bias row), the lane log-softmax at rank 2 or rank 3, and a child level added to its parent and
  flattened. The identifications hold by unfolding. Read at an index, the chains give: the scores are Tree.lean's
  score of the row against the bank's row; the log-softmax chains are its logSoftmax of a group of scores; and a
  flattened child level at column c = 16 · (c / 16) + c % 16 is child c % 16 of class c / 16 plus the parent's value.
  A change of float format is the identity at the extended reals, so the block enters the products as it is.
-/
import proofs.«147709_j412316860848_1_alg».proof.Proof.Gen.KernelIdeal.Skeleton
import proofs.«147709_j412316860848_1_alg».proof.Proof.Tree
import proofs.«147709_j412316860848_1_alg».proof.Proof.Flat
import proofs.«147709_j412316860848_1_alg».proof.Proof.LibGroups

noncomputable section

namespace Cert.KernelIdeal.Levels

open Idealize.ShloMosaic Idealize.ShloMosaic.ValueIdx Cert.KernelIdeal Cert.KernelIdeal.Gen Cert.Tree Cert.Lib.Groups

/-- The log-softmax of a group is the lane log-softmax started from the word of minus infinity. -/
theorem logSoftmax_eq_lane {n : Nat} (v : Fin n → EReal) (j : Fin n) :
    logSoftmax v j = laneLogSoftmax (Ideal.ofBits .f32 0xFF800000#32) v j := rfl

/-! ## The three products contract both last axes -/

theorem dot16_eq : dot_S128x2048_S16x2048_S128x16_1_1_0_0_n_n = DotDims.transposedRhs 128 2048 16 :=
  eq_transposedRhs _ rfl rfl rfl rfl rfl rfl
theorem dot256_eq : dot_S128x2048_S256x2048_S128x256_1_1_0_0_n_n = DotDims.transposedRhs 128 2048 256 :=
  eq_transposedRhs _ rfl rfl rfl rfl rfl rfl
theorem dot4096_eq : dot_S128x2048_S4096x2048_S128x4096_1_1_0_0_n_n = DotDims.transposedRhs 128 2048 4096 :=
  eq_transposedRhs _ rfl rfl rfl rfl rfl rfl

/-! ## The block's scores against the three banks -/

section Scores

variable (a : FVec Ideal S128x2048 .bf16) (x1 : Vec Ideal S16x2048 .bf16) (x2 : Vec Ideal S1x16 .f32)
  (x3 : Vec Ideal S256x2048 .bf16) (x4 : Vec Ideal S1x256 .f32) (x5 : Vec Ideal S4096x2048 .bf16)
  (x6 : Vec Ideal S1x4096 .f32)

/-- The block's scores against the 16 top rows. -/
def scores0 : FVec Ideal S128x16 .f32 :=
  blockScores (M := 128) (K := 2048) (N := 16) (φ₁ := .bf16) (φ₂ := .bf16) dot_S128x2048_S16x2048_S128x16_1_1_0_0_n_n none a x1 x2
    shapeCasts_S16x2048_S16x2048 shapeCasts_S1x16_S1x16 broadcasts_S1x16_S128x16
/-- The block's scores against the 256 level-1 rows, flat. -/
def scores1 : FVec Ideal S128x256 .f32 :=
  blockScores (M := 128) (K := 2048) (N := 256) (φ₁ := .bf16) (φ₂ := .bf16) dot_S128x2048_S256x2048_S128x256_1_1_0_0_n_n none a x3 x4
    shapeCasts_S256x2048_S256x2048 shapeCasts_S1x256_S1x256 broadcasts_S1x256_S128x256
/-- The block's scores against the 4096 level-2 rows, flat. -/
def scores2 : FVec Ideal S128x4096 .f32 :=
  blockScores (M := 128) (K := 2048) (N := 4096) (φ₁ := .bf16) (φ₂ := .bf16) dot_S128x2048_S4096x2048_S128x4096_1_1_0_0_n_n none a x5 x6
    shapeCasts_S4096x2048_S4096x2048 shapeCasts_S1x4096_S1x4096 broadcasts_S1x4096_S128x4096

theorem scores0_apply (r : Fin 128) (j : Fin 16) :
    scores0 a x1 x2 (ix2 r j) = score (rowOf a r) (bank2 x1) (rowVec x2) j := by
  unfold scores0
  exact blockScores_apply (φ₁ := .bf16) (φ₂ := .bf16) _ dot16_eq none a x1 x2 _ _ _ r j

/-- Level 1's scores in groups: group p, lane q is flat column 16 p + q. -/
theorem scores1_apply (r : Fin 128) (p q : Fin 16) :
    shapeCast S128x16x16 (scores1 a x3 x4) shapeCasts_S128x256_S128x16x16 (ix3 r p q)
      = score (rowOf a r) (bankOf256 x3 p) (biasOf256 x4 p) q := by
  rw [split_apply (A := 128) (B := 16) (C := 16) (N := 256) _ _ (by norm_num) r p q (flat16 (A := 16) p q)
    (by show 16 * p.val + q.val = p.val * 16 + q.val; omega)]
  unfold scores1
  exact blockScores_apply (φ₁ := .bf16) (φ₂ := .bf16) _ dot256_eq none a x3 x4 _ _ _ r (flat16 (A := 16) p q)

/-- Level 2's scores in groups: group c, lane q is flat column 16 c + q. -/
theorem scores2_apply (r : Fin 128) (c : Fin 256) (q : Fin 16) :
    shapeCast S128x256x16 (scores2 a x5 x6) shapeCasts_S128x4096_S128x256x16 (ix3 r c q)
      = score (rowOf a r) (bankOf4096 x5 c) (biasOf4096 x6 c) q := by
  rw [split_apply (A := 128) (B := 256) (C := 16) (N := 4096) _ _ (by norm_num) r c q (flat16 (A := 256) c q)
    (by show 16 * c.val + q.val = c.val * 16 + q.val; omega)]
  unfold scores2
  exact blockScores_apply (φ₁ := .bf16) (φ₂ := .bf16) _ dot4096_eq none a x5 x6 _ _ _ r (flat16 (A := 256) c q)

end Scores

/-! ## The kernel's values are the chains -/

variable (x0 : Vec Ideal S128x2048 .f32) (x1 : Vec Ideal S16x2048 .bf16) (x2 : Vec Ideal S1x16 .f32)
  (x3 : Vec Ideal S256x2048 .bf16) (x4 : Vec Ideal S1x256 .f32) (x5 : Vec Ideal S4096x2048 .bf16)
  (x6 : Vec Ideal S1x4096 .f32)

/-- The block in the products' format reads as the block. -/
theorem pay3_row (r : Fin 128) : rowOf (k0_pay3 (F := Ideal) x0) r = rowOf x0 r := rfl

theorem pay4_eq : k0_pay4 (F := Ideal) x0 x1 x2
    = rowLogSoftmax (scores0 (k0_pay3 (F := Ideal) x0) x1 x2) reduces_S128x16_S128 shapeCasts_S128_S128x1
        broadcasts_S128x1_S128x16 := rfl

theorem pay5_eq : k0_pay5 (F := Ideal) x0 x3 x4
    = groupLogSoftmax (shapeCast S128x16x16 (scores1 (k0_pay3 (F := Ideal) x0) x3 x4) shapeCasts_S128x256_S128x16x16)
        reduces_S128x16x16_S128x16 shapeCasts_S128x16_S128x16x1 broadcasts_S128x16x1_S128x16x16 := rfl

theorem pay1_eq (v20 : FVec Ideal S128x16 .f32) (v40 : FVec Ideal S128x16x16 .f32) : k0_pay1 (F := Ideal) v20 v40
    = withParent (N := 256) v40 v20 shapeCasts_S128x16_S128x16x1 broadcasts_S128x16x1_S128x16x16
        shapeCasts_S128x16x16_S128x256 := rfl

theorem pay2_eq (v1 : FVec Ideal S128x2048 .bf16) (v20 : FVec Ideal S128x16 .f32) (v40 : FVec Ideal S128x16x16 .f32) :
    k0_pay2 (F := Ideal) v1 v20 v40 x5 x6
      = withParent (N := 4096)
          (groupLogSoftmax (shapeCast S128x256x16 (scores2 v1 x5 x6) shapeCasts_S128x4096_S128x256x16)
            reduces_S128x256x16_S128x256 shapeCasts_S128x256_S128x256x1 broadcasts_S128x256x1_S128x256x16)
          (k0_pay1 (F := Ideal) v20 v40) shapeCasts_S128x256_S128x256x1 broadcasts_S128x256x1_S128x256x16
          shapeCasts_S128x256x16_S128x4096 := rfl

/-! ## The levels -/

/-- Level 0 at (r, j). -/
theorem pay4_apply (r : Fin 128) (j : Fin 16) :
    k0_pay4 (F := Ideal) x0 x1 x2 (ix2 r j) = level0 (rowOf x0 r) (bank2 x1) (rowVec x2) j := by
  rw [pay4_eq, rowLogSoftmax_apply _ _ _ _ (by decide)]
  have hz : (fun k => scores0 (k0_pay3 (F := Ideal) x0) x1 x2 (ix2 r k))
      = score (rowOf x0 r) (bank2 x1) (rowVec x2) := funext (scores0_apply _ x1 x2 r)
  rw [hz]
  rfl

/-- Level 1's own log-softmax at (r, p, q). -/
theorem pay5_apply (r : Fin 128) (p q : Fin 16) :
    k0_pay5 (F := Ideal) x0 x3 x4 (ix3 r p q)
      = logSoftmax (score (rowOf x0 r) (bankOf256 x3 p) (biasOf256 x4 p)) q := by
  rw [pay5_eq, groupLogSoftmax_apply]
  have hz : (fun k => shapeCast S128x16x16 (scores1 (k0_pay3 (F := Ideal) x0) x3 x4) shapeCasts_S128x256_S128x16x16
        (ix3 r p k)) = score (rowOf x0 r) (bankOf256 x3 p) (biasOf256 x4 p) := funext (scores1_apply _ x3 x4 r p)
  rw [hz]
  rfl

/-- Level 1 with its parent, flat, at (r, c). -/
theorem pay1_apply (r : Fin 128) (c : Fin 256) :
    k0_pay1 (F := Ideal) (k0_pay4 x0 x1 x2) (k0_pay5 x0 x3 x4) (ix2 r c)
      = level1Flat (rowOf x0 r) (bank2 x1) (rowVec x2) (bankOf256 x3) (biasOf256 x4) c := by
  rw [pay1_eq, withParent_apply (A := 128) (B := 16) (C := 16) (N := 256) _ _ _ _ _ (by norm_num) r
    ⟨c.val / 16, by have := c.isLt; omega⟩ ⟨c.val % 16, Nat.mod_lt _ (by norm_num)⟩ c
    (by show c.val = c.val / 16 * 16 + c.val % 16; omega), pay5_apply, pay4_apply]
  rfl

/-- Level 2 with its parent, flat, at (r, e). -/
theorem pay2_apply (r : Fin 128) (e : Fin 4096) :
    k0_pay2 (F := Ideal) (k0_pay3 x0) (k0_pay4 x0 x1 x2) (k0_pay5 x0 x3 x4) x5 x6 (ix2 r e)
      = level2Flat (rowOf x0 r) (bank2 x1) (rowVec x2) (bankOf256 x3) (biasOf256 x4) (bankOf4096 x5) (biasOf4096 x6)
          e := by
  rw [pay2_eq, withParent_apply (A := 128) (B := 256) (C := 16) (N := 4096) _ _ _ _ _ (by norm_num) r
    ⟨e.val / 16, by have := e.isLt; omega⟩ ⟨e.val % 16, Nat.mod_lt _ (by norm_num)⟩ e
    (by show e.val = e.val / 16 * 16 + e.val % 16; omega), groupLogSoftmax_apply, pay1_apply]
  have hz : (fun k => shapeCast S128x256x16 (scores2 (k0_pay3 (F := Ideal) x0) x5 x6) shapeCasts_S128x4096_S128x256x16
        (ix3 r ⟨e.val / 16, by have := e.isLt; omega⟩ k))
      = score (rowOf x0 r) (bankOf4096 x5 ⟨e.val / 16, by have := e.isLt; omega⟩)
          (biasOf4096 x6 ⟨e.val / 16, by have := e.isLt; omega⟩) := funext (scores2_apply _ x5 x6 r _)
  rw [hz]
  rfl

end Cert.KernelIdeal.Levels

end
-- ==== Proof.Blocks.lean ====
/-
  From the blocks to the two result arrays.

  At grid point `t` the body works on rows `128 t .. 128 t + 127`. Row `r` of its level-0, level-1 and leaves' blocks is
  level 0, level 1 and the leaves of input row `128 t + r` (the weights and biases being staged whole, and the flat
  banks being the grouped ones re-laid). Each point writes its two blocks back at block row `t`; the 32 blocks tile the
  arrays' rows; so after the run the leaves array holds the leaves of every row, and the all-levels array the three
  levels of every row side by side.
-/
import proofs.«147709_j412316860848_1_alg».proof.Proof.Pieces
import proofs.«147709_j412316860848_1_alg».proof.Proof.Arrays
import proofs.«147709_j412316860848_1_alg».proof.Proof.KernelLevels

set_option maxRecDepth 16384

noncomputable section

namespace Cert.KernelIdeal.Blocks

open Cert.KernelIdeal Cert.KernelIdeal.Gen Cert.Tree Cert.KernelIdeal.Arrays Cert.KernelIdeal.Pieces Cert.KernelIdeal.Levels
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The leaves of the launched arguments, as an array. -/
abbrev leavesOf (c : Dev nD) : S4096x4096.Idx → EReal := leaves (aX m c) (aW0 m c) (aB0 m c) (aW1 m c) (aB1 m c) (aW2 m c) (aB2 m c)
/-- The three levels of the launched arguments side by side, as an array. -/
abbrev allOf (c : Dev nD) : S4096x4368.Idx → EReal := allLevels (aX m c) (aW0 m c) (aB0 m c) (aW1 m c) (aB1 m c) (aW2 m c) (aB2 m c)

/-! ## The two arrays and the banded block at explicit coordinates -/

theorem allLevels_at (X : (⟨2, ![4096, 2048]⟩ : Shape).Idx → EReal)
    (W0 : (⟨2, ![16, 2048]⟩ : Shape).Idx → EReal) (B0 : (⟨1, ![16]⟩ : Shape).Idx → EReal)
    (W1 : (⟨3, ![16, 16, 2048]⟩ : Shape).Idx → EReal) (B1 : (⟨2, ![16, 16]⟩ : Shape).Idx → EReal)
    (W2 : (⟨3, ![256, 16, 2048]⟩ : Shape).Idx → EReal) (B2 : (⟨2, ![256, 16]⟩ : Shape).Idx → EReal)
    (r : Fin 4096) (j : Fin 4368) :
    allLevels X W0 B0 W1 B1 W2 B2 (ix2 r j)
      = if h0 : j.val < 16 then top X W0 B0 r ⟨j.val, h0⟩
        else if h1 : j.val < 272 then mid X W0 B0 W1 B1 r ⟨j.val - 16, by omega⟩
        else leaf X W0 B0 W1 B1 W2 B2 r ⟨j.val - 272, by have := j.isLt; omega⟩ := rfl

theorem bands_at (p4 : Vec Ideal S128x16 .f32) (p1 : Vec Ideal S128x256 .f32) (p2 : Vec Ideal S128x4096 .f32)
    (r : Fin 128) (j : Fin 4368) :
    bands p4 p1 p2 (ix2 r j)
      = if h0 : j.val < 16 then p4 (ix2 r ⟨j.val, h0⟩)
        else if h1 : j.val < 272 then p1 (ix2 r ⟨j.val - 16, by omega⟩)
        else p2 (ix2 r ⟨j.val - 272, by have := j.isLt; omega⟩) := rfl

/-! ## A block's rows are the levels of the input's rows -/

section Point

variable (c : Dev nD) (t : Fin cfg0.N)

/-- Row `r` of the level-0 block is level 0 of input row `128 t + r`. -/
theorem topBlock_at (r : Fin 128) (j : Fin 16) :
    (k0_pay4 (F := Ideal) (blk0 m c t) (blk1 m c t) (blk2 m c t)) (ix2 r j) = top (aX m c) (aW0 m c) (aB0 m c) ⟨128 * t.val + r.val, by have := t.isLt; have := r.isLt; have : cfg0.N = 32 := N_0; omega⟩ j := by
  refine (pay4_apply (blk0 m c t) (blk1 m c t) (blk2 m c t) r j).trans ?_
  rw [rows_eq m c t r, bank0_eq m c t, bias0_eq m c t]

/-- Row `r` of the level-1 block is level 1 of input row `128 t + r`. -/
theorem midBlock_at (r : Fin 128) (j : Fin 256) :
    (k0_pay1 (F := Ideal) (k0_pay4 (F := Ideal) (blk0 m c t) (blk1 m c t) (blk2 m c t)) (k0_pay5 (F := Ideal) (blk0 m c t) (blk3 m c t) (blk4 m c t))) (ix2 r j) = mid (aX m c) (aW0 m c) (aB0 m c) (aW1 m c) (aB1 m c) ⟨128 * t.val + r.val, by have := t.isLt; have := r.isLt; have : cfg0.N = 32 := N_0; omega⟩ j := by
  refine (pay1_apply (blk0 m c t) (blk1 m c t) (blk2 m c t) (blk3 m c t) (blk4 m c t) r j).trans ?_
  rw [rows_eq m c t r, bank0_eq m c t, bias0_eq m c t, bank1_eq m c t, bias1_eq m c t]

/-- Row `r` of the leaves' block is the leaves of input row `128 t + r`. -/
theorem leafBlock_at (r : Fin 128) (j : Fin 4096) :
    (k0_pay2 (F := Ideal) (k0_pay3 (F := Ideal) (blk0 m c t)) (k0_pay4 (F := Ideal) (blk0 m c t) (blk1 m c t) (blk2 m c t)) (k0_pay5 (F := Ideal) (blk0 m c t) (blk3 m c t) (blk4 m c t)) (blk5 m c t) (blk6 m c t)) (ix2 r j) = leaf (aX m c) (aW0 m c) (aB0 m c) (aW1 m c) (aB1 m c) (aW2 m c) (aB2 m c) ⟨128 * t.val + r.val, by have := t.isLt; have := r.isLt; have : cfg0.N = 32 := N_0; omega⟩ j := by
  refine (pay2_apply (blk0 m c t) (blk1 m c t) (blk2 m c t) (blk3 m c t) (blk4 m c t) (blk5 m c t) (blk6 m c t) r j).trans ?_
  rw [rows_eq m c t r, bank0_eq m c t, bias0_eq m c t, bank1_eq m c t, bias1_eq m c t, bank2_eq m c t, bias2_eq m c t]

/-! ## What a point writes back -/

/-- Point `t` writes back block row `t` of the leaves array. -/
theorem flushed8_eq : (dats m 0 c).flushed 8 t = ((cfg0.win 8).blk t).view.read (Elt Ideal) (leavesOf m c) := by
  rw [Value.flushed8_A, out8_eq]
  obtain ⟨-, -, -, -, -, -, -, -, ⟨e0, e1⟩⟩ := index_facts t
  refine funext fun (y : S128x4096.Idx) => ?_
  obtain ⟨r, j, rfl⟩ : ∃ (r : Fin 128) (j : Fin 4096), y = ix2 r j := ⟨y 0, y 1, eq_ix2 y⟩
  show (k0_pay2 (F := Ideal) (k0_pay3 (F := Ideal) (blk0 m c t)) (k0_pay4 (F := Ideal) (blk0 m c t) (blk1 m c t) (blk2 m c t)) (k0_pay5 (F := Ideal) (blk0 m c t) (blk3 m c t) (blk4 m c t)) (blk5 m c t) (blk6 m c t)) (ix2 r j) = leavesOf m c (((cfg0.win 8).blk t).view.emb (ix2 r j))
  have ei : ((cfg0.win 8).blk t).view.emb (ix2 r j) = ix2 (⟨128 * t.val + r.val, by have := t.isLt; have := r.isLt; have : cfg0.N = 32 := N_0; omega⟩ : Fin 4096) j :=
    funext fun a => Fin.ext (by
      match a with
      | ⟨0, _⟩ => show win0_8.index t (0 : Fin 2) * 128 + 1 * r.val = 128 * t.val + r.val; omega
      | ⟨1, _⟩ => show win0_8.index t (1 : Fin 2) * 4096 + 1 * j.val = j.val; omega)
  rw [ei, leafBlock_at m c t r j]
  rfl

/-- Point `t` writes back block row `t` of the all-levels array. -/
theorem flushed7_eq : (dats m 0 c).flushed 7 t = ((cfg0.win 7).blk t).view.read (Elt Ideal) (allOf m c) := by
  rw [Value.flushed7_A, out7_eq]
  obtain ⟨-, -, -, -, -, -, -, ⟨e0, e1⟩, -⟩ := index_facts t
  refine funext fun (y : S128x4368.Idx) => ?_
  obtain ⟨r, j, rfl⟩ : ∃ (r : Fin 128) (j : Fin 4368), y = ix2 r j := ⟨y 0, y 1, eq_ix2 y⟩
  show bands (F := Ideal) (k0_pay4 (F := Ideal) (blk0 m c t) (blk1 m c t) (blk2 m c t)) (k0_pay1 (F := Ideal) (k0_pay4 (F := Ideal) (blk0 m c t) (blk1 m c t) (blk2 m c t)) (k0_pay5 (F := Ideal) (blk0 m c t) (blk3 m c t) (blk4 m c t))) (k0_pay2 (F := Ideal) (k0_pay3 (F := Ideal) (blk0 m c t)) (k0_pay4 (F := Ideal) (blk0 m c t) (blk1 m c t) (blk2 m c t)) (k0_pay5 (F := Ideal) (blk0 m c t) (blk3 m c t) (blk4 m c t)) (blk5 m c t) (blk6 m c t)) (ix2 r j) = allOf m c (((cfg0.win 7).blk t).view.emb (ix2 r j))
  have ei : ((cfg0.win 7).blk t).view.emb (ix2 r j) = ix2 (⟨128 * t.val + r.val, by have := t.isLt; have := r.isLt; have : cfg0.N = 32 := N_0; omega⟩ : Fin 4096) j :=
    funext fun a => Fin.ext (by
      match a with
      | ⟨0, _⟩ => show win0_7.index t (0 : Fin 2) * 128 + 1 * r.val = 128 * t.val + r.val; omega
      | ⟨1, _⟩ => show win0_7.index t (1 : Fin 2) * 4368 + 1 * j.val = j.val; omega)
  rw [ei, bands_at]
  unfold allOf
  rw [allLevels_at]
  by_cases h0 : j.val < 16
  · rw [dif_pos h0, dif_pos h0]; exact topBlock_at m c t r _
  · rw [dif_neg h0, dif_neg h0]
    by_cases h1 : j.val < 272
    · rw [dif_pos h1, dif_pos h1]; exact midBlock_at m c t r _
    · rw [dif_neg h1, dif_neg h1]; exact leafBlock_at m c t r _

end Point

/-! ## The blocks tile the rows -/

/-- Every block row is some point's, in both output windows (decided over the grid). -/
theorem rows_onto : ∀ q : Fin 32, ∃ t : Fin cfg0.N, win0_7.index t = ![q.val, 0] ∧ win0_8.index t = ![q.val, 0] :=
  (by decide +kernel : ∀ q : Fin 32, ∃ t : Fin grid0.N, win0_7.index t = ![q.val, 0] ∧ win0_8.index t = ![q.val, 0])

theorem mem_blk8 (t : Fin cfg0.N) (i : S4096x4096.Idx) :
    i ∈ ((cfg0.win 8).blk t).view.set ↔ ∀ a : Fin 2, win0_8.index t a * S128x4096.size a ≤ (i a).val ∧ (i a).val < win0_8.index t a * S128x4096.size a + S128x4096.size a := by
  show i ∈ ((View.whole main_v8_1).slice (win0_8.rect t)).set ↔ _
  rw [View.set_slice_whole, Rect.mem_set_unit]
  exact Iff.rfl

theorem mem_blk7 (t : Fin cfg0.N) (i : S4096x4368.Idx) :
    i ∈ ((cfg0.win 7).blk t).view.set ↔ ∀ a : Fin 2, win0_7.index t a * S128x4368.size a ≤ (i a).val ∧ (i a).val < win0_7.index t a * S128x4368.size a + S128x4368.size a := by
  show i ∈ ((View.whole main_v8_0).slice (win0_7.rect t)).set ↔ _
  rw [View.set_slice_whole, Rect.mem_set_unit]
  exact Iff.rfl

/-- Row `i 0` of the leaves array lies in the block of point `(i 0) / 128`. -/
theorem cover8 (i : S4096x4096.Idx) : ∃ t : Fin cfg0.N, (cfg0.win 8).flush t = true ∧ i ∈ ((cfg0.win 8).blk t).view.set := by
  have hi0 : (i 0).val < 4096 := idx2_lt0 i
  have hi1 : (i 1).val < 4096 := idx2_lt1 i
  obtain ⟨t, -, ht⟩ := rows_onto ⟨(i 0).val / 128, by omega⟩
  have q0 : win0_8.index t (0 : Fin 2) = (i 0).val / 128 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 4096 ≤ (i 1).val ∧ (i 1).val < win0_8.index t (1 : Fin 2) * 4096 + 4096; omega

/-- The same for the all-levels array. -/
theorem cover7 (i : S4096x4368.Idx) : ∃ t : Fin cfg0.N, (cfg0.win 7).flush t = true ∧ i ∈ ((cfg0.win 7).blk t).view.set := by
  have hi0 : (i 0).val < 4096 := idx2_lt0 i
  have hi1 : (i 1).val < 4368 := idx2_lt1 i
  obtain ⟨t, ht, -⟩ := rows_onto ⟨(i 0).val / 128, by omega⟩
  have q0 : win0_7.index t (0 : Fin 2) = (i 0).val / 128 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 4368 ≤ (i 1).val ∧ (i 1).val < win0_7.index t (1 : Fin 2) * 4368 + 4368; omega

/-! ## The arrays after the run -/

theorem final8 (c : Dev nD) : (dats m 0 c).arrAt 8 cfg0.N = leavesOf m c :=
  (dats m 0 c).arrAt_eq_of_cover 8 (leavesOf m c) (fun t _ => flushed8_eq m c t) cover8

theorem final7 (c : Dev nD) : (dats m 0 c).arrAt 7 cfg0.N = allOf m c :=
  (dats m 0 c).arrAt_eq_of_cover 7 (allOf m c) (fun t _ => flushed7_eq m c t) cover7

/-- The kernel's run: both result arrays at their functions of the launched arguments, the arguments unchanged. -/
theorem run : θ_run defs (onTc (τ := τ) (main (F := Ideal))) ⟨m, fun _ => 0, ρ⟩ fun r => ∀ c : Dev nD,
      r.2.mem ((c : Thread nD τ).loc main_v8_0) = allOf m c
      ∧ r.2.mem ((c : Thread nD τ).loc main_v8_1) = leavesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.Blocks

end
-- ==== Proof.LibTypedRefs.lean ====
/-
  A typed reference's transport, there and back.

  A module-local function's operations are stated over references that carry the type of the tensor value they hold;
  contents move between the value's type and the buffer's own type along the reference's type equation. Moving a
  value to the buffer's type and back is the identity, and so is the other way round: what one operation of an inlined
  callee writes, the next reads as it was.
-/
import Idealize.ShloMosaic.Lib.StableHlo

noncomputable section

namespace Cert.Lib.TypedRefs

open Idealize.ShloMosaic Idealize.ShloMosaic.StableHlo

variable {sig : RefSig} {Val : EltTy → Type}

/-- To the buffer's type and back. -/
theorem ofBuf_toBuf {T : BufTy} (x : TRef sig T) : ∀ v : T.Contents Val, x.ofBuf (x.toBuf v) = v := by
  obtain ⟨r, h, _, _⟩ := x
  subst h
  intro v
  rfl

/-- To the value's type and back. -/
theorem toBuf_ofBuf {T : BufTy} (x : TRef sig T) : ∀ v : x.ref.ty.Contents Val, x.toBuf (x.ofBuf v) = v := by
  obtain ⟨r, h, _, _⟩ := x
  subst h
  intro v
  rfl

end Cert.Lib.TypedRefs

end
-- ==== Proof.RefStages.lean ====
/-
  The reference's run, read stage by stage.

  The reference program is a straight line of 67 host operations: the top scores and their log-softmax (20 operations),
  the level-1 scores, their grouped log-softmax, the parent added and the groups flattened (23), the same for the
  leaves (23), and the concatenation of the three levels. Running it stretch by stretch, each stretch's result is the
  stage function of the inputs it reads: level 0 of the arguments; level 1 of the arguments and level 0; the leaves of the
  arguments and level 1; the concatenation of the three. A stretch leaves alone every buffer it does not write, so the
  facts carry across, and the whole run ends with both results at their stages of the arguments.
-/
import proofs.«147709_j412316860848_1_alg».proof.Proof.RefRead
import Idealize.ShloMosaic.Lib.Pipeline.Frame
import proofs.«147709_j412316860848_1_alg».proof.Proof.LibTypedRefs

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The line, cut at the levels -/

/-- Level 0: the top scores, then their log-softmax. -/
abbrev opsTop : List (HloOp τ sig (Elt F)) :=
  [ unary main_arg1 main_v0 ((transpose S2048x16 [1, 0] · transposes_S16x2048_S2048x16_1_0) : (⟨S16x2048, .f32⟩ : BufTy).Contents (Elt F) → (⟨S2048x16, .f32⟩ : BufTy).Contents (Elt F)),
    binary main_arg0 main_v0 main_v1 ((fun l r => Host.dotGeneral dot_S4096x2048_S2048x16_S4096x16_1_0_0_1_n_n none l r) : (⟨S4096x2048, .f32⟩ : BufTy).Contents (Elt F) → (⟨S2048x16, .f32⟩ : BufTy).Contents (Elt F) → (⟨S4096x16, .f32⟩ : BufTy).Contents (Elt F)),
    unary main_arg2 main_v2 (broadcastInDim S1x16 ![1] bcast_S16_S1x16_1 : (⟨S16, .f32⟩ : BufTy).Contents (Elt F) → (⟨S1x16, .f32⟩ : BufTy).Contents (Elt F)),
    unary main_v2 main_v3 (broadcastInDim S4096x16 ![0, 1] bcast_S1x16_S4096x16_0_1 : (⟨S1x16, .f32⟩ : BufTy).Contents (Elt F) → (⟨S4096x16, .f32⟩ : BufTy).Contents (Elt F)),
    binary main_v1 main_v3 main_v4 (addf : (⟨S4096x16, .f32⟩ : BufTy).Contents (Elt F) → (⟨S4096x16, .f32⟩ : BufTy).Contents (Elt F) → (⟨S4096x16, .f32⟩ : BufTy).Contents (Elt F)),
    TRef.nullary (TRef.of (T := ⟨S_, .f32⟩) main_call0_cst) (constant S_ .f32 0xFF800000#32),
    TRef.binary (TRef.of (T := ⟨S4096x16, .f32⟩) main_v4) (TRef.of (T := ⟨S_, .f32⟩) main_call0_cst) (TRef.of (T := ⟨S4096, .f32⟩) main_call0_v0) (fun x v => Host.reduce FloatOps.maximumf x v reducesTo_S4096x16_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x16, .f32⟩) main_call0_v4) (broadcastInDim S4096x16 ![0, 1] bcast_S4096x1_S4096x16_0_1),
    TRef.binary (TRef.of (T := ⟨S4096x16, .f32⟩) main_v4) (TRef.of (T := ⟨S4096x16, .f32⟩) main_call0_v4) (TRef.of (T := ⟨S4096x16, .f32⟩) main_call0_v5) subf,
    TRef.unary (TRef.of (T := ⟨S4096x16, .f32⟩) main_call0_v5) (TRef.of (T := ⟨S4096x16, .f32⟩) main_call0_v6) Host.exp,
    TRef.nullary (TRef.of (T := ⟨S_, .f32⟩) main_call0_cst_1) (constant S_ .f32 0x00000000#32),
    TRef.binary (TRef.of (T := ⟨S4096x16, .f32⟩) main_call0_v6) (TRef.of (T := ⟨S_, .f32⟩) main_call0_cst_1) (TRef.of (T := ⟨S4096, .f32⟩) main_call0_v7) (fun x v => Host.reduceAdd x v reducesTo_S4096x16_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x16, .f32⟩) main_call0_v10) (broadcastInDim S4096x16 ![0, 1] bcast_S4096x1_S4096x16_0_1),
    TRef.binary (TRef.of (T := ⟨S4096x16, .f32⟩) main_call0_v5) (TRef.of (T := ⟨S4096x16, .f32⟩) main_call0_v10) (TRef.of (T := ⟨S4096x16, .f32⟩) main_v5) subf ]

/-- Level 1: the scores of every group, their log-softmax, the parent's log-probability added, the groups flattened. -/
abbrev opsMid : List (HloOp τ sig (Elt F)) :=
  [ binary main_arg0 main_arg3 main_v6 ((fun l r => Host.dotGeneral dot_S4096x2048_S16x16x2048_S4096x16x16_1_2_0_01_n_n none l r) : (⟨S4096x2048, .f32⟩ : BufTy).Contents (Elt F) → (⟨S16x16x2048, .f32⟩ : BufTy).Contents (Elt F) → (⟨S4096x16x16, .f32⟩ : BufTy).Contents (Elt F)),
    unary main_arg4 main_v7 (broadcastInDim S1x16x16 ![1, 2] bcast_S16x16_S1x16x16_1_2 : (⟨S16x16, .f32⟩ : BufTy).Contents (Elt F) → (⟨S1x16x16, .f32⟩ : BufTy).Contents (Elt F)),
    unary main_v7 main_v8 (broadcastInDim S4096x16x16 ![0, 1, 2] bcast_S1x16x16_S4096x16x16_0_1_2 : (⟨S1x16x16, .f32⟩ : BufTy).Contents (Elt F) → (⟨S4096x16x16, .f32⟩ : BufTy).Contents (Elt F)),
    binary main_v6 main_v8 main_v9 (addf : (⟨S4096x16x16, .f32⟩ : BufTy).Contents (Elt F) → (⟨S4096x16x16, .f32⟩ : BufTy).Contents (Elt F) → (⟨S4096x16x16, .f32⟩ : BufTy).Contents (Elt F)),
    TRef.nullary (TRef.of (T := ⟨S_, .f32⟩) main_call1_cst) (constant S_ .f32 0xFF800000#32),
    TRef.binary (TRef.of (T := ⟨S4096x16x16, .f32⟩) main_v9) (TRef.of (T := ⟨S_, .f32⟩) main_call1_cst) (TRef.of (T := ⟨S4096x16, .f32⟩) main_call1_v0) (fun x v => Host.reduce FloatOps.maximumf x v reducesTo_S4096x16x16_S4096x16_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S4096x16, .f32⟩) main_call1_v1) (broadcastInDim S4096x16 ![] bcast_S_S4096x16),
    TRef.binary (TRef.of (T := ⟨S4096x16, .f32⟩) main_call1_v1) (TRef.of (T := ⟨S4096x16, .f32⟩) main_call1_v0) (TRef.of (T := ⟨S4096x16, .f32⟩) main_call1_v2) maximumf,
    TRef.unary (TRef.of (T := ⟨S4096x16, .f32⟩) main_call1_v2) (TRef.of (T := ⟨S4096x16x1, .f32⟩) main_call1_v3) (broadcastInDim S4096x16x1 ![0, 1] bcast_S4096x16_S4096x16x1_0_1),
    TRef.unary (TRef.of (T := ⟨S4096x16x1, .f32⟩) main_call1_v3) (TRef.of (T := ⟨S4096x16x16, .f32⟩) main_call1_v4) (broadcastInDim S4096x16x16 ![0, 1, 2] bcast_S4096x16x1_S4096x16x16_0_1_2),
    TRef.binary (TRef.of (T := ⟨S4096x16x16, .f32⟩) main_v9) (TRef.of (T := ⟨S4096x16x16, .f32⟩) main_call1_v4) (TRef.of (T := ⟨S4096x16x16, .f32⟩) main_call1_v5) subf,
    TRef.unary (TRef.of (T := ⟨S4096x16x16, .f32⟩) main_call1_v5) (TRef.of (T := ⟨S4096x16x16, .f32⟩) main_call1_v6) Host.exp,
    TRef.nullary (TRef.of (T := ⟨S_, .f32⟩) main_call1_cst_1) (constant S_ .f32 0x00000000#32),
    TRef.binary (TRef.of (T := ⟨S4096x16x16, .f32⟩) main_call1_v6) (TRef.of (T := ⟨S_, .f32⟩) main_call1_cst_1) (TRef.of (T := ⟨S4096x16, .f32⟩) main_call1_v7) (fun x v => Host.reduceAdd x v reducesTo_S4096x16x16_S4096x16_d2 h_S_),
    TRef.unary (TRef.of (T := ⟨S4096x16, .f32⟩) main_call1_v7) (TRef.of (T := ⟨S4096x16x1, .f32⟩) main_call1_v8) (broadcastInDim S4096x16x1 ![0, 1] bcast_S4096x16_S4096x16x1_0_1),
    TRef.unary (TRef.of (T := ⟨S4096x16x1, .f32⟩) main_call1_v8) (TRef.of (T := ⟨S4096x16x1, .f32⟩) main_call1_v9) Host.log,
    TRef.unary (TRef.of (T := ⟨S4096x16x1, .f32⟩) main_call1_v9) (TRef.of (T := ⟨S4096x16x16, .f32⟩) main_call1_v10) (broadcastInDim S4096x16x16 ![0, 1, 2] bcast_S4096x16x1_S4096x16x16_0_1_2),
    TRef.binary (TRef.of (T := ⟨S4096x16x16, .f32⟩) main_call1_v5) (TRef.of (T := ⟨S4096x16x16, .f32⟩) main_call1_v10) (TRef.of (T := ⟨S4096x16x16, .f32⟩) main_v10) subf,
    unary main_v5 main_v11 (broadcastInDim S4096x16x1 ![0, 1] bcast_S4096x16_S4096x16x1_0_1 : (⟨S4096x16, .f32⟩ : BufTy).Contents (Elt F) → (⟨S4096x16x1, .f32⟩ : BufTy).Contents (Elt F)),
    unary main_v11 main_v12 (broadcastInDim S4096x16x16 ![0, 1, 2] bcast_S4096x16x1_S4096x16x16_0_1_2 : (⟨S4096x16x1, .f32⟩ : BufTy).Contents (Elt F) → (⟨S4096x16x16, .f32⟩ : BufTy).Contents (Elt F)),
    binary main_v10 main_v12 main_v13 (addf : (⟨S4096x16x16, .f32⟩ : BufTy).Contents (Elt F) → (⟨S4096x16x16, .f32⟩ : BufTy).Contents (Elt F) → (⟨S4096x16x16, .f32⟩ : BufTy).Contents (Elt F)),
    reshape main_v13 main_v14 rfl shapeCasts_S4096x16x16_S4096x256 ]

/-- The leaves: the same over the 256 level-1 classes. -/
abbrev opsLeaf : List (HloOp τ sig (Elt F)) :=
  [ binary main_arg0 main_arg5 main_v15 ((fun l r => Host.dotGeneral dot_S4096x2048_S256x16x2048_S4096x256x16_1_2_0_01_n_n none l r) : (⟨S4096x2048, .f32⟩ : BufTy).Contents (Elt F) → (⟨S256x16x2048, .f32⟩ : BufTy).Contents (Elt F) → (⟨S4096x256x16, .f32⟩ : BufTy).Contents (Elt F)),
    unary main_arg6 main_v16 (broadcastInDim S1x256x16 ![1, 2] bcast_S256x16_S1x256x16_1_2 : (⟨S256x16, .f32⟩ : BufTy).Contents (Elt F) → (⟨S1x256x16, .f32⟩ : BufTy).Contents (Elt F)),
    unary main_v16 main_v17 (broadcastInDim S4096x256x16 ![0, 1, 2] bcast_S1x256x16_S4096x256x16_0_1_2 : (⟨S1x256x16, .f32⟩ : BufTy).Contents (Elt F) → (⟨S4096x256x16, .f32⟩ : BufTy).Contents (Elt F)),
    binary main_v15 main_v17 main_v18 (addf : (⟨S4096x256x16, .f32⟩ : BufTy).Contents (Elt F) → (⟨S4096x256x16, .f32⟩ : BufTy).Contents (Elt F) → (⟨S4096x256x16, .f32⟩ : BufTy).Contents (Elt F)),
    TRef.nullary (TRef.of (T := ⟨S_, .f32⟩) main_call2_cst) (constant S_ .f32 0xFF800000#32),
    TRef.binary (TRef.of (T := ⟨S4096x256x16, .f32⟩) main_v18) (TRef.of (T := ⟨S_, .f32⟩) main_call2_cst) (TRef.of (T := ⟨S4096x256, .f32⟩) main_call2_v0) (fun x v => Host.reduce FloatOps.maximumf x v reducesTo_S4096x256x16_S4096x256_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S4096x256, .f32⟩) main_call2_v1) (broadcastInDim S4096x256 ![] bcast_S_S4096x256),
    TRef.binary (TRef.of (T := ⟨S4096x256, .f32⟩) main_call2_v1) (TRef.of (T := ⟨S4096x256, .f32⟩) main_call2_v0) (TRef.of (T := ⟨S4096x256, .f32⟩) main_call2_v2) maximumf,
    TRef.unary (TRef.of (T := ⟨S4096x256, .f32⟩) main_call2_v2) (TRef.of (T := ⟨S4096x256x1, .f32⟩) main_call2_v3) (broadcastInDim S4096x256x1 ![0, 1] bcast_S4096x256_S4096x256x1_0_1),
    TRef.unary (TRef.of (T := ⟨S4096x256x1, .f32⟩) main_call2_v3) (TRef.of (T := ⟨S4096x256x16, .f32⟩) main_call2_v4) (broadcastInDim S4096x256x16 ![0, 1, 2] bcast_S4096x256x1_S4096x256x16_0_1_2),
    TRef.binary (TRef.of (T := ⟨S4096x256x16, .f32⟩) main_v18) (TRef.of (T := ⟨S4096x256x16, .f32⟩) main_call2_v4) (TRef.of (T := ⟨S4096x256x16, .f32⟩) main_call2_v5) subf,
    TRef.unary (TRef.of (T := ⟨S4096x256x16, .f32⟩) main_call2_v5) (TRef.of (T := ⟨S4096x256x16, .f32⟩) main_call2_v6) Host.exp,
    TRef.nullary (TRef.of (T := ⟨S_, .f32⟩) main_call2_cst_1) (constant S_ .f32 0x00000000#32),
    TRef.binary (TRef.of (T := ⟨S4096x256x16, .f32⟩) main_call2_v6) (TRef.of (T := ⟨S_, .f32⟩) main_call2_cst_1) (TRef.of (T := ⟨S4096x256, .f32⟩) main_call2_v7) (fun x v => Host.reduceAdd x v reducesTo_S4096x256x16_S4096x256_d2 h_S_),
    TRef.unary (TRef.of (T := ⟨S4096x256, .f32⟩) main_call2_v7) (TRef.of (T := ⟨S4096x256x1, .f32⟩) main_call2_v8) (broadcastInDim S4096x256x1 ![0, 1] bcast_S4096x256_S4096x256x1_0_1),
    TRef.unary (TRef.of (T := ⟨S4096x256x1, .f32⟩) main_call2_v8) (TRef.of (T := ⟨S4096x256x1, .f32⟩) main_call2_v9) Host.log,
    TRef.unary (TRef.of (T := ⟨S4096x256x1, .f32⟩) main_call2_v9) (TRef.of (T := ⟨S4096x256x16, .f32⟩) main_call2_v10) (broadcastInDim S4096x256x16 ![0, 1, 2] bcast_S4096x256x1_S4096x256x16_0_1_2),
    TRef.binary (TRef.of (T := ⟨S4096x256x16, .f32⟩) main_call2_v5) (TRef.of (T := ⟨S4096x256x16, .f32⟩) main_call2_v10) (TRef.of (T := ⟨S4096x256x16, .f32⟩) main_v19) subf,
    unary main_v14 main_v20 (broadcastInDim S4096x256x1 ![0, 1] bcast_S4096x256_S4096x256x1_0_1 : (⟨S4096x256, .f32⟩ : BufTy).Contents (Elt F) → (⟨S4096x256x1, .f32⟩ : BufTy).Contents (Elt F)),
    unary main_v20 main_v21 (broadcastInDim S4096x256x16 ![0, 1, 2] bcast_S4096x256x1_S4096x256x16_0_1_2 : (⟨S4096x256x1, .f32⟩ : BufTy).Contents (Elt F) → (⟨S4096x256x16, .f32⟩ : BufTy).Contents (Elt F)),
    binary main_v19 main_v21 main_v22 (addf : (⟨S4096x256x16, .f32⟩ : BufTy).Contents (Elt F) → (⟨S4096x256x16, .f32⟩ : BufTy).Contents (Elt F) → (⟨S4096x256x16, .f32⟩ : BufTy).Contents (Elt F)),
    reshape main_v22 main_v23 rfl shapeCasts_S4096x256x16_S4096x4096 ]

/-- The three levels side by side. -/
abbrev opJoin : HloOp τ sig (Elt F) :=
  nary ![main_v5, main_v14, main_v23] main_v24 (fun u => concatenate S4096x4368 1 [⟨S4096x16, u 0⟩, ⟨S4096x256, u 1⟩, ⟨S4096x4096, u 2⟩] concatenates_S4096x16_S4096x256_S4096x4096_S4096x4368_d1)

set_option maxRecDepth 8192 in
/-- The whole line is the four stretches in order. -/
theorem ops_split : (ops : List (HloOp τ sig (Elt F))) = opsTop ++ (opsMid ++ (opsLeaf ++ [opJoin])) := rfl

/-! ## Each stretch from any contents -/

section Stretches

variable (V : Valuation τ sig (Elt F))

set_option maxRecDepth 8192 in
/-- Level 0's result is its stage of the three arguments it reads. -/
theorem top_out : after (opsTop (F := F)) V (Proc.devRef .tc main_v5)
    = val_main_v5 (F := F) (V (Proc.devRef .tc main_arg0)) (V (Proc.devRef .tc main_arg1)) (V (Proc.devRef .tc main_arg2)) := by
  after_results_simp
  simp only [Cert.Lib.TypedRefs.ofBuf_toBuf]
  rfl

theorem top_keeps_arg0 : after (opsTop (F := F)) V (Proc.devRef .tc main_arg0) = V (Proc.devRef .tc main_arg0) := by after_results_simp <;> rfl
theorem top_keeps_arg3 : after (opsTop (F := F)) V (Proc.devRef .tc main_arg3) = V (Proc.devRef .tc main_arg3) := by after_results_simp <;> rfl
theorem top_keeps_arg4 : after (opsTop (F := F)) V (Proc.devRef .tc main_arg4) = V (Proc.devRef .tc main_arg4) := by after_results_simp <;> rfl
theorem top_keeps_arg5 : after (opsTop (F := F)) V (Proc.devRef .tc main_arg5) = V (Proc.devRef .tc main_arg5) := by after_results_simp <;> rfl
theorem top_keeps_arg6 : after (opsTop (F := F)) V (Proc.devRef .tc main_arg6) = V (Proc.devRef .tc main_arg6) := by after_results_simp <;> rfl

set_option maxRecDepth 8192 in
/-- Level 1's result is its stage, given the input rows and level 0 where the stretch finds them. -/
theorem mid_out (x0 : (⟨S4096x2048, .f32⟩ : BufTy).Contents (Elt F)) (x1 : (⟨S16x2048, .f32⟩ : BufTy).Contents (Elt F))
    (x2 : (⟨S16, .f32⟩ : BufTy).Contents (Elt F)) (h0 : V (Proc.devRef .tc main_arg0) = x0)
    (h5 : V (Proc.devRef .tc main_v5) = val_main_v5 (F := F) x0 x1 x2) :
    after (opsMid (F := F)) V (Proc.devRef .tc main_v14)
      = val_main_v14 (F := F) x0 x1 x2 (V (Proc.devRef .tc main_arg3)) (V (Proc.devRef .tc main_arg4)) := by
  after_results_simp
  simp only [Cert.Lib.TypedRefs.ofBuf_toBuf]
  rw [h0, h5]
  rfl

theorem mid_keeps_arg0 : after (opsMid (F := F)) V (Proc.devRef .tc main_arg0) = V (Proc.devRef .tc main_arg0) := by after_results_simp <;> rfl
theorem mid_keeps_arg5 : after (opsMid (F := F)) V (Proc.devRef .tc main_arg5) = V (Proc.devRef .tc main_arg5) := by after_results_simp <;> rfl
theorem mid_keeps_arg6 : after (opsMid (F := F)) V (Proc.devRef .tc main_arg6) = V (Proc.devRef .tc main_arg6) := by after_results_simp <;> rfl
theorem mid_keeps_v5 : after (opsMid (F := F)) V (Proc.devRef .tc main_v5) = V (Proc.devRef .tc main_v5) := by after_results_simp <;> rfl

set_option maxRecDepth 8192 in
/-- The leaves' result is its stage, given the input rows and level 1 where the stretch finds them. -/
theorem leaf_out (x0 : (⟨S4096x2048, .f32⟩ : BufTy).Contents (Elt F)) (x1 : (⟨S16x2048, .f32⟩ : BufTy).Contents (Elt F))
    (x2 : (⟨S16, .f32⟩ : BufTy).Contents (Elt F)) (x3 : (⟨S16x16x2048, .f32⟩ : BufTy).Contents (Elt F))
    (x4 : (⟨S16x16, .f32⟩ : BufTy).Contents (Elt F)) (h0 : V (Proc.devRef .tc main_arg0) = x0)
    (h14 : V (Proc.devRef .tc main_v14) = val_main_v14 (F := F) x0 x1 x2 x3 x4) :
    after (opsLeaf (F := F)) V (Proc.devRef .tc main_v23)
      = val_main_v23 (F := F) x0 x1 x2 x3 x4 (V (Proc.devRef .tc main_arg5)) (V (Proc.devRef .tc main_arg6)) := by
  after_results_simp
  simp only [Cert.Lib.TypedRefs.ofBuf_toBuf]
  rw [h0, h14]
  rfl

theorem leaf_keeps_v5 : after (opsLeaf (F := F)) V (Proc.devRef .tc main_v5) = V (Proc.devRef .tc main_v5) := by after_results_simp <;> rfl
theorem leaf_keeps_v14 : after (opsLeaf (F := F)) V (Proc.devRef .tc main_v14) = V (Proc.devRef .tc main_v14) := by after_results_simp <;> rfl

/-- The join writes the concatenation of what it finds in the three levels' buffers, -/
theorem join_out (y5 : (⟨S4096x16, .f32⟩ : BufTy).Contents (Elt F)) (y14 : (⟨S4096x256, .f32⟩ : BufTy).Contents (Elt F))
    (y23 : (⟨S4096x4096, .f32⟩ : BufTy).Contents (Elt F)) (h5 : V (Proc.devRef .tc main_v5) = y5) (h14 : V (Proc.devRef .tc main_v14) = y14)
    (h23 : V (Proc.devRef .tc main_v23) = y23) :
    after [opJoin (F := F)] V (Proc.devRef .tc main_v24)
      = concatenate S4096x4368 1 [⟨S4096x16, y5⟩, ⟨S4096x256, y14⟩, ⟨S4096x4096, y23⟩] concatenates_S4096x16_S4096x256_S4096x4096_S4096x4368_d1 := by
  subst h5 h14 h23
  simp only [after_cons, after_nil]
  rw [nary_result]
  rfl

/-- and leaves the leaves' buffer alone. -/
theorem join_keeps_v23 : after [opJoin (F := F)] V (Proc.devRef .tc main_v23) = V (Proc.devRef .tc main_v23) := by after_results_simp <;> rfl

end Stretches

/-! ## The whole line -/

/-- From any contents, both results end at their stages of the seven arguments. -/
theorem whole_out (V : Valuation τ sig (Elt F)) :
    after (ops (F := F)) V (Proc.devRef .tc main_v24)
        = val_main_v24 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    ∧ after (ops (F := F)) V (Proc.devRef .tc main_v23)
        = val_main_v23 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_split, StableHlo.after_append, StableHlo.after_append, StableHlo.after_append]
  -- level 0, and what it keeps
  have t5 := top_out V
  have t0 := top_keeps_arg0 V
  -- level 1 over it
  have m14 := mid_out (after opsTop V) _ _ _ t0 t5
  rw [top_keeps_arg3 V, top_keeps_arg4 V] at m14
  have m0 : after opsMid (after opsTop V) (Proc.devRef .tc main_arg0) = V (Proc.devRef .tc main_arg0) := (mid_keeps_arg0 _).trans t0
  have m5 : after opsMid (after opsTop V) (Proc.devRef .tc main_v5) = _ := (mid_keeps_v5 _).trans t5
  -- the leaves over it
  have l23 := leaf_out (after opsMid (after opsTop V)) _ _ _ _ _ m0 m14
  rw [mid_keeps_arg5, mid_keeps_arg6, top_keeps_arg5 V, top_keeps_arg6 V] at l23
  have l5 : after opsLeaf (after opsMid (after opsTop V)) (Proc.devRef .tc main_v5) = _ := (leaf_keeps_v5 _).trans m5
  have l14 : after opsLeaf (after opsMid (after opsTop V)) (Proc.devRef .tc main_v14) = _ := (leaf_keeps_v14 _).trans m14
  exact ⟨join_out _ _ _ _ l5 l14 l23, (join_keeps_v23 _).trans l23⟩

/-! ## The run -/

set_option maxRecDepth 8192 in
/-- On every device, from any memory with zero counters: every weakly fair execution of the reference terminates with the two
    results at their stages of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = val_main_v24 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v23) = val_main_v23 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v24).trans (whole_out _).1,
      (h c main_v23).trans (whole_out _).2,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Stages

end
-- ==== Proof.RefLevels.lean ====
/-
  The reference program's three result levels, read one entry at a time, are the hierarchical log-softmax of
  `Proof/Tree.lean`.

  Each level is read in three steps. The raw scores of a group (a product sum against the input row plus a bias) are
  `Tree.score` of the row. The log-softmax function, applied to the scores array, is at every entry `Tree.logSoftmax` of
  the entry's group: its shift is the larger of the word of minus infinity and the running maximum started from that
  word, and the normaliser is the log of the sum of the shifted entries' exponentials (the sum starts from the zero
  word, which is 0). Below the top level the parent's log-probability is added, and the flat order of the columns is
  `16 p + q`: the reshape reads its operand at the quotient and the remainder by 16.
-/
import proofs.«147709_j412316860848_1_alg».proof.Proof.RefRead
import proofs.«147709_j412316860848_1_alg».proof.Proof.Tree
import Idealize.ShloMosaic.PureOps.Reduce
import Idealize.ShloMosaic.Lib.Pipeline.Value

noncomputable section
namespace Cert.ReferenceIdeal.Levels

open Idealize.ShloMosaic Idealize.ShloMosaic.ValueIdx Cert.ReferenceIdeal Cert.ReferenceIdeal.ReadP Cert.Tree

variable (X : (⟨S4096x2048, .f32⟩ : BufTy).Contents (Elt Ideal)) (W0 : (⟨S16x2048, .f32⟩ : BufTy).Contents (Elt Ideal))
  (B0 : (⟨S16, .f32⟩ : BufTy).Contents (Elt Ideal)) (W1 : (⟨S16x16x2048, .f32⟩ : BufTy).Contents (Elt Ideal))
  (B1 : (⟨S16x16, .f32⟩ : BufTy).Contents (Elt Ideal)) (W2 : (⟨S256x16x2048, .f32⟩ : BufTy).Contents (Elt Ideal))
  (B2 : (⟨S256x16, .f32⟩ : BufTy).Contents (Elt Ideal))

/-! ## Level 0: the raw scores -/

/-- Entry `(r, j)` of the top scores is the score of row `r` against weight row `j`. -/
theorem scores0_apply (r : Fin 4096) (j : Fin 16) :
    val_main_v4 (F := Ideal) X W0 B0 (ix2 r j) = score (rowOf X r) (bank2 W0) (vec1 B0) j := by
  have e1 : ∀ k : Fin 2048, lidx_main_v1 (ix2 r j) k = ix2 r k := fun k =>
    funext fun a => Fin.ext (by match a with | ⟨0, _⟩ => rfl | ⟨1, _⟩ => rfl)
  have e2 : ∀ k : Fin 2048, idx_main_v0 (ridx_main_v1 (ix2 r j) k) = ix2 j k := fun k =>
    funext fun a => Fin.ext (by match a with | ⟨0, _⟩ => rfl | ⟨1, _⟩ => rfl)
  have e3 : idx_main_v2 (idx_main_v3 (ix2 r j)) = ix1 j :=
    funext fun a => Fin.ext (by match a with | ⟨0, _⟩ => rfl)
  rw [val_main_v4_apply, val_main_v1_apply, val_main_v3_apply, val_main_v2_apply, e3]
  simp only [val_main_v0_apply, e1, e2]
  rfl

/-! ## A maximum-reduce over the last axis, read at an index

The host's reduce with a maximum body over one axis is, at an index of the result, the running maximum over that axis
started from the initial value's element. For the last axis of a rank-2 and of a rank-3 array the reduced coordinate
goes back in the last place. -/

section MaxLastAxis

/-- Rank 2, last axis: the result index `r` with `k` put back is `(r, k)`. -/
theorem lift_last2 {n0 n1 : Nat} (h : (⟨2, ![n0, n1]⟩ : Shape).Reduces [1] (⟨1, ![n0]⟩ : Shape)) (r : Fin n0)
    (k : Fin ((⟨2, ![n0, n1]⟩ : Shape).size 1)) : h.lift (ix1 r) k = ix2 r (⟨k.val, k.isLt⟩ : Fin n1) := by
  funext c
  apply Fin.ext
  match c with
  | ⟨0, _⟩ => rfl
  | ⟨1, _⟩ => rfl

/-- Rank 3, last axis: the result index `(r, p)` with `k` put back is `(r, p, k)`. -/
theorem lift_last3 {n0 n1 n2 : Nat} (h : (⟨3, ![n0, n1, n2]⟩ : Shape).Reduces [2] (⟨2, ![n0, n1]⟩ : Shape)) (r : Fin n0)
    (p : Fin n1) (k : Fin ((⟨3, ![n0, n1, n2]⟩ : Shape).size 2)) :
    h.lift (ix2 r p) k = ix3 r p (⟨k.val, k.isLt⟩ : Fin n2) := by
  funext c
  apply Fin.ext
  match c with
  | ⟨0, _⟩ => rfl
  | ⟨1, _⟩ => rfl
  | ⟨2, _⟩ => rfl

/-- The maximum-reduce of a matrix along its rows, at row `r`: the running maximum of the row from the initial value. -/
theorem hostReduce_max_last2 {n0 n1 : Nat} {u : Shape} (s : (⟨2, ![n0, n1]⟩ : Shape).Idx → Ideal .f32)
    (init : u.Idx → Ideal .f32) (h' : (⟨2, ![n0, n1]⟩ : Shape).ReducesTo [1] (⟨1, ![n0]⟩ : Shape))
    (h : (⟨2, ![n0, n1]⟩ : Shape).Reduces [1] (⟨1, ![n0]⟩ : Shape)) (hu : 0 < u.numel) (r : Fin n0) :
    Host.reduce FloatOps.maximumf s init h' hu (ix1 r)
      = (Finset.univ : Finset (Fin n1)).fold max (init (Shape.Idx.first hu)) (fun k => s (ix2 r k)) := by
  rw [Host.reduce_eq_fold_single FloatOps.maximumf s init h' h hu]
  refine congrArg (fun f => Finset.fold max (init (Shape.Idx.first hu)) f (Finset.univ : Finset (Fin n1))) ?_
  funext k
  exact congrArg s (lift_last2 h r k)

/-- The maximum-reduce of a rank-3 array along its last axis, at `(r, p)`. -/
theorem hostReduce_max_last3 {n0 n1 n2 : Nat} {u : Shape} (s : (⟨3, ![n0, n1, n2]⟩ : Shape).Idx → Ideal .f32)
    (init : u.Idx → Ideal .f32) (h' : (⟨3, ![n0, n1, n2]⟩ : Shape).ReducesTo [2] (⟨2, ![n0, n1]⟩ : Shape))
    (h : (⟨3, ![n0, n1, n2]⟩ : Shape).Reduces [2] (⟨2, ![n0, n1]⟩ : Shape)) (hu : 0 < u.numel) (r : Fin n0) (p : Fin n1) :
    Host.reduce FloatOps.maximumf s init h' hu (ix2 r p)
      = (Finset.univ : Finset (Fin n2)).fold max (init (Shape.Idx.first hu)) (fun k => s (ix3 r p k)) := by
  rw [Host.reduce_eq_fold_single FloatOps.maximumf s init h' h hu]
  refine congrArg (fun f => Finset.fold max (init (Shape.Idx.first hu)) f (Finset.univ : Finset (Fin n2))) ?_
  funext k
  exact congrArg s (lift_last3 h r p k)

end MaxLastAxis

/-! ## Level 0: the log-softmax of the top scores -/

/-- The running maximum of row `r`'s top scores, from the floor word. -/
theorem max0_apply (r : Fin 4096) :
    val_main_call0_v0 (F := Ideal) X W0 B0 (ix1 r)
      = (Finset.univ : Finset (Fin 16)).fold max floorWord (fun k => val_main_v4 (F := Ideal) X W0 B0 (ix2 r k)) := by
  unfold val_main_call0_v0
  exact hostReduce_max_last2 (val_main_v4 (F := Ideal) X W0 B0) (val_main_call0_cst (F := Ideal))
    Gen.reducesTo_S4096x16_S4096_d1 (by decide) Gen.h_S_ r

/-- The shift that is taken off row `r`'s top scores. -/
theorem shift0_apply (r : Fin 4096) (j : Fin 16) :
    val_main_call0_v4 (F := Ideal) X W0 B0 (ix2 r j) = shift (fun k => val_main_v4 (F := Ideal) X W0 B0 (ix2 r k)) := by
  have e : idx_main_call0_v3 (idx_main_call0_v4 (ix2 r j)) = ix1 r :=
    funext fun a => Fin.ext (by match a with | ⟨0, _⟩ => rfl)
  rw [val_main_call0_v4_apply, val_main_call0_v3_apply, e, val_main_call0_v2_apply, val_main_call0_v1_apply,
    val_main_call0_cst_0_apply, max0_apply]
  rfl

/-- A shifted top score. -/
theorem shifted0_apply (r : Fin 4096) (j : Fin 16) :
    val_main_call0_v5 (F := Ideal) X W0 B0 (ix2 r j)
      = val_main_v4 (F := Ideal) X W0 B0 (ix2 r j) - shift (fun k => val_main_v4 (F := Ideal) X W0 B0 (ix2 r k)) := by
  rw [val_main_call0_v5_apply, shift0_apply]
  rfl

/-- The normaliser of row `r`: the log of the sum of the shifted scores' exponentials. -/
theorem norm0_apply (r : Fin 4096) (j : Fin 16) :
    val_main_call0_v10 (F := Ideal) X W0 B0 (ix2 r j)
      = Ideal.log (∑ k : Fin 16, Ideal.exp (val_main_v4 (F := Ideal) X W0 B0 (ix2 r k)
          - shift (fun k' => val_main_v4 (F := Ideal) X W0 B0 (ix2 r k')))) := by
  have e : idx_main_call0_v8 (idx_main_call0_v10 (ix2 r j)) = ix1 r :=
    funext fun a => Fin.ext (by match a with | ⟨0, _⟩ => rfl)
  have e7 : ∀ k : Fin 16, idx_main_call0_v7 (ix1 r) k = ix2 r k := fun k =>
    funext fun a => Fin.ext (by match a with | ⟨0, _⟩ => rfl | ⟨1, _⟩ => rfl)
  rw [val_main_call0_v10_apply, val_main_call0_v9_apply, val_main_call0_v8_apply, e, val_main_call0_v7_apply,
    val_main_call0_cst_1_apply]
  simp only [e7, val_main_call0_v6_apply, shifted0_apply]
  show Ideal.log (Ideal.ofBits .f32 0x00000000#32 + _) = _
  rw [Ideal.ofBits_zero_f32, zero_add]
  rfl

/-- The log-softmax function on the top scores: entry `(r, j)` is the log-softmax of row `r`'s scores at `j`. -/
theorem call0_apply (r : Fin 4096) (j : Fin 16) :
    val_main_v5 (F := Ideal) X W0 B0 (ix2 r j) = logSoftmax (fun k => val_main_v4 (F := Ideal) X W0 B0 (ix2 r k)) j := by
  rw [val_main_v5_apply, shifted0_apply, norm0_apply]
  rfl

theorem top_apply (r : Fin 4096) (j : Fin 16) :
    val_main_v5 (F := Ideal) X W0 B0 (ix2 r j) = top X W0 B0 r j := by
  rw [call0_apply]
  exact congrArg (fun v => logSoftmax v j) (funext fun k => scores0_apply X W0 B0 r k)

/-! ## Level 1 -/

/-- Entry `(r, p, q)` of the level-1 scores is the score of row `r` against weight row `q` of top class `p`'s bank. -/
theorem scores1_apply (r : Fin 4096) (p q : Fin 16) :
    val_main_v9 (F := Ideal) X W1 B1 (ix3 r p q) = score (rowOf X r) (bank3 W1 p) (bank2 B1 p) q := by
  have e1 : ∀ k : Fin 2048, lidx_main_v6 (ix3 r p q) k = ix2 r k := fun k =>
    funext fun a => Fin.ext (by match a with | ⟨0, _⟩ => rfl | ⟨1, _⟩ => rfl)
  have e2 : ∀ k : Fin 2048, ridx_main_v6 (ix3 r p q) k = ix3 p q k := fun k =>
    funext fun a => Fin.ext (by match a with | ⟨0, _⟩ => rfl | ⟨1, _⟩ => rfl | ⟨2, _⟩ => rfl)
  have e3 : idx_main_v7 (idx_main_v8 (ix3 r p q)) = ix2 p q :=
    funext fun a => Fin.ext (by match a with | ⟨0, _⟩ => rfl | ⟨1, _⟩ => rfl)
  rw [val_main_v9_apply, val_main_v6_apply, val_main_v8_apply, val_main_v7_apply, e3]
  simp only [e1, e2]
  rfl

/-- The running maximum of group `(r, p)`'s scores, from the floor word. -/
theorem max1_apply (r : Fin 4096) (p : Fin 16) :
    val_main_call1_v0 (F := Ideal) X W1 B1 (ix2 r p)
      = (Finset.univ : Finset (Fin 16)).fold max floorWord (fun k => val_main_v9 (F := Ideal) X W1 B1 (ix3 r p k)) := by
  unfold val_main_call1_v0
  exact hostReduce_max_last3 (val_main_v9 (F := Ideal) X W1 B1) (val_main_call1_cst (F := Ideal))
    Gen.reducesTo_S4096x16x16_S4096x16_d2 (by decide) Gen.h_S_ r p

/-- The shift that is taken off group `(r, p)`'s scores. -/
theorem shift1_apply (r : Fin 4096) (p q : Fin 16) :
    val_main_call1_v4 (F := Ideal) X W1 B1 (ix3 r p q)
      = shift (fun k => val_main_v9 (F := Ideal) X W1 B1 (ix3 r p k)) := by
  have e : idx_main_call1_v3 (idx_main_call1_v4 (ix3 r p q)) = ix2 r p :=
    funext fun a => Fin.ext (by match a with | ⟨0, _⟩ => rfl | ⟨1, _⟩ => rfl)
  rw [val_main_call1_v4_apply, val_main_call1_v3_apply, e, val_main_call1_v2_apply, val_main_call1_v1_apply,
    val_main_call1_cst_0_apply, max1_apply]
  rfl

/-- A shifted level-1 score. -/
theorem shifted1_apply (r : Fin 4096) (p q : Fin 16) :
    val_main_call1_v5 (F := Ideal) X W1 B1 (ix3 r p q)
      = val_main_v9 (F := Ideal) X W1 B1 (ix3 r p q) - shift (fun k => val_main_v9 (F := Ideal) X W1 B1 (ix3 r p k)) := by
  rw [val_main_call1_v5_apply, shift1_apply]
  rfl

/-- The normaliser of group `(r, p)`. -/
theorem norm1_apply (r : Fin 4096) (p q : Fin 16) :
    val_main_call1_v10 (F := Ideal) X W1 B1 (ix3 r p q)
      = Ideal.log (∑ k : Fin 16, Ideal.exp (val_main_v9 (F := Ideal) X W1 B1 (ix3 r p k)
          - shift (fun k' => val_main_v9 (F := Ideal) X W1 B1 (ix3 r p k')))) := by
  have e : idx_main_call1_v8 (idx_main_call1_v10 (ix3 r p q)) = ix2 r p :=
    funext fun a => Fin.ext (by match a with | ⟨0, _⟩ => rfl | ⟨1, _⟩ => rfl)
  have e7 : ∀ k : Fin 16, idx_main_call1_v7 (ix2 r p) k = ix3 r p k := fun k =>
    funext fun a => Fin.ext (by match a with | ⟨0, _⟩ => rfl | ⟨1, _⟩ => rfl | ⟨2, _⟩ => rfl)
  rw [val_main_call1_v10_apply, val_main_call1_v9_apply, val_main_call1_v8_apply, e, val_main_call1_v7_apply,
    val_main_call1_cst_1_apply]
  simp only [e7, val_main_call1_v6_apply, shifted1_apply]
  show Ideal.log (Ideal.ofBits .f32 0x00000000#32 + _) = _
  rw [Ideal.ofBits_zero_f32, zero_add]
  rfl

/-- The log-softmax function on the level-1 scores: entry `(r, p, q)` is the log-softmax of group `(r, p)` at `q`. -/
theorem call1_apply (r : Fin 4096) (p q : Fin 16) :
    val_main_v10 (F := Ideal) X W1 B1 (ix3 r p q)
      = logSoftmax (fun k => val_main_v9 (F := Ideal) X W1 B1 (ix3 r p k)) q := by
  rw [val_main_v10_apply, shifted1_apply, norm1_apply]
  rfl

/-- With the parent's log-probability added: entry `(r, p, q)` is level 1 of row `r` at child `q` of top class `p`. -/
theorem level1_apply (r : Fin 4096) (p q : Fin 16) :
    val_main_v13 (F := Ideal) X W0 B0 W1 B1 (ix3 r p q)
      = level1 (rowOf X r) (bank2 W0) (vec1 B0) (bank3 W1) (bank2 B1) p q := by
  have e : idx_main_v11 (idx_main_v12 (ix3 r p q)) = ix2 r p :=
    funext fun a => Fin.ext (by match a with | ⟨0, _⟩ => rfl | ⟨1, _⟩ => rfl)
  rw [val_main_v13_apply, val_main_v12_apply, val_main_v11_apply, e, call1_apply, top_apply]
  exact congrArg (fun v => logSoftmax v q + top X W0 B0 r p) (funext fun k => scores1_apply X W1 B1 r p k)

/-- The flat column `c` of level 1 is read at top class `c / 16`, child `c % 16`. -/
theorem idx_main_v14_ix2 (r : Fin 4096) (c : Fin 256) :
    idx_main_v14 (ix2 r c)
      = ix3 r (⟨c.val / 16, by have := c.isLt; omega⟩ : Fin 16) (⟨c.val % 16, Nat.mod_lt _ (by norm_num)⟩ : Fin 16) := by
  have hc := c.isLt
  refine funext fun a => Fin.ext ?_
  match a with
  | ⟨0, _⟩ => show (r.val * 256 + c.val) / 256 = r.val; omega
  | ⟨1, _⟩ => show (r.val * 256 + c.val) / 16 % 16 = c.val / 16; omega
  | ⟨2, _⟩ => show (r.val * 256 + c.val) % 16 = c.val % 16; omega

theorem mid_apply (r : Fin 4096) (c : Fin 256) :
    val_main_v14 (F := Ideal) X W0 B0 W1 B1 (ix2 r c) = mid X W0 B0 W1 B1 r c := by
  rw [val_main_v14_apply, idx_main_v14_ix2, level1_apply]
  rfl

/-! ## Level 2 -/

/-- Entry `(r, c, q)` of the level-2 scores is the score of row `r` against weight row `q` of level-1 class `c`'s bank. -/
theorem scores2_apply (r : Fin 4096) (c : Fin 256) (q : Fin 16) :
    val_main_v18 (F := Ideal) X W2 B2 (ix3 r c q) = score (rowOf X r) (bank3 W2 c) (bank2 B2 c) q := by
  have e1 : ∀ k : Fin 2048, lidx_main_v15 (ix3 r c q) k = ix2 r k := fun k =>
    funext fun a => Fin.ext (by match a with | ⟨0, _⟩ => rfl | ⟨1, _⟩ => rfl)
  have e2 : ∀ k : Fin 2048, ridx_main_v15 (ix3 r c q) k = ix3 c q k := fun k =>
    funext fun a => Fin.ext (by match a with | ⟨0, _⟩ => rfl | ⟨1, _⟩ => rfl | ⟨2, _⟩ => rfl)
  have e3 : idx_main_v16 (idx_main_v17 (ix3 r c q)) = ix2 c q :=
    funext fun a => Fin.ext (by match a with | ⟨0, _⟩ => rfl | ⟨1, _⟩ => rfl)
  rw [val_main_v18_apply, val_main_v15_apply, val_main_v17_apply, val_main_v16_apply, e3]
  simp only [e1, e2]
  rfl

/-- The running maximum of group `(r, c)`'s scores, from the floor word. -/
theorem max2_apply (r : Fin 4096) (c : Fin 256) :
    val_main_call2_v0 (F := Ideal) X W2 B2 (ix2 r c)
      = (Finset.univ : Finset (Fin 16)).fold max floorWord (fun k => val_main_v18 (F := Ideal) X W2 B2 (ix3 r c k)) := by
  unfold val_main_call2_v0
  exact hostReduce_max_last3 (val_main_v18 (F := Ideal) X W2 B2) (val_main_call2_cst (F := Ideal))
    Gen.reducesTo_S4096x256x16_S4096x256_d2 (by decide) Gen.h_S_ r c

/-- The shift that is taken off group `(r, c)`'s scores. -/
theorem shift2_apply (r : Fin 4096) (c : Fin 256) (q : Fin 16) :
    val_main_call2_v4 (F := Ideal) X W2 B2 (ix3 r c q)
      = shift (fun k => val_main_v18 (F := Ideal) X W2 B2 (ix3 r c k)) := by
  have e : idx_main_call2_v3 (idx_main_call2_v4 (ix3 r c q)) = ix2 r c :=
    funext fun a => Fin.ext (by match a with | ⟨0, _⟩ => rfl | ⟨1, _⟩ => rfl)
  rw [val_main_call2_v4_apply, val_main_call2_v3_apply, e, val_main_call2_v2_apply, val_main_call2_v1_apply,
    val_main_call2_cst_0_apply, max2_apply]
  rfl

/-- A shifted level-2 score. -/
theorem shifted2_apply (r : Fin 4096) (c : Fin 256) (q : Fin 16) :
    val_main_call2_v5 (F := Ideal) X W2 B2 (ix3 r c q)
      = val_main_v18 (F := Ideal) X W2 B2 (ix3 r c q) - shift (fun k => val_main_v18 (F := Ideal) X W2 B2 (ix3 r c k)) := by
  rw [val_main_call2_v5_apply, shift2_apply]
  rfl

/-- The normaliser of group `(r, c)`. -/
theorem norm2_apply (r : Fin 4096) (c : Fin 256) (q : Fin 16) :
    val_main_call2_v10 (F := Ideal) X W2 B2 (ix3 r c q)
      = Ideal.log (∑ k : Fin 16, Ideal.exp (val_main_v18 (F := Ideal) X W2 B2 (ix3 r c k)
          - shift (fun k' => val_main_v18 (F := Ideal) X W2 B2 (ix3 r c k')))) := by
  have e : idx_main_call2_v8 (idx_main_call2_v10 (ix3 r c q)) = ix2 r c :=
    funext fun a => Fin.ext (by match a with | ⟨0, _⟩ => rfl | ⟨1, _⟩ => rfl)
  have e7 : ∀ k : Fin 16, idx_main_call2_v7 (ix2 r c) k = ix3 r c k := fun k =>
    funext fun a => Fin.ext (by match a with | ⟨0, _⟩ => rfl | ⟨1, _⟩ => rfl | ⟨2, _⟩ => rfl)
  rw [val_main_call2_v10_apply, val_main_call2_v9_apply, val_main_call2_v8_apply, e, val_main_call2_v7_apply,
    val_main_call2_cst_1_apply]
  simp only [e7, val_main_call2_v6_apply, shifted2_apply]
  show Ideal.log (Ideal.ofBits .f32 0x00000000#32 + _) = _
  rw [Ideal.ofBits_zero_f32, zero_add]
  rfl

/-- The log-softmax function on the level-2 scores: entry `(r, c, q)` is the log-softmax of group `(r, c)` at `q`. -/
theorem call2_apply (r : Fin 4096) (c : Fin 256) (q : Fin 16) :
    val_main_v19 (F := Ideal) X W2 B2 (ix3 r c q)
      = logSoftmax (fun k => val_main_v18 (F := Ideal) X W2 B2 (ix3 r c k)) q := by
  rw [val_main_v19_apply, shifted2_apply, norm2_apply]
  rfl

/-- With the parent's log-probability added: entry `(r, c, q)` is level 2 of row `r` at child `q` of level-1 class `c`. -/
theorem level2_apply (r : Fin 4096) (c : Fin 256) (q : Fin 16) :
    val_main_v22 (F := Ideal) X W0 B0 W1 B1 W2 B2 (ix3 r c q)
      = level2 (rowOf X r) (bank2 W0) (vec1 B0) (bank3 W1) (bank2 B1) (bank3 W2) (bank2 B2) c q := by
  have e : idx_main_v20 (idx_main_v21 (ix3 r c q)) = ix2 r c :=
    funext fun a => Fin.ext (by match a with | ⟨0, _⟩ => rfl | ⟨1, _⟩ => rfl)
  rw [val_main_v22_apply, val_main_v21_apply, val_main_v20_apply, e, call2_apply, mid_apply]
  exact congrArg (fun v => logSoftmax v q + mid X W0 B0 W1 B1 r c) (funext fun k => scores2_apply X W2 B2 r c k)

/-- The flat column `e` of level 2 is read at level-1 class `e / 16`, child `e % 16`. -/
theorem idx_main_v23_ix2 (r : Fin 4096) (e : Fin 4096) :
    idx_main_v23 (ix2 r e)
      = ix3 r (⟨e.val / 16, by have := e.isLt; omega⟩ : Fin 256) (⟨e.val % 16, Nat.mod_lt _ (by norm_num)⟩ : Fin 16) := by
  have he := e.isLt
  refine funext fun a => Fin.ext ?_
  match a with
  | ⟨0, _⟩ => show (r.val * 4096 + e.val) / 4096 = r.val; omega
  | ⟨1, _⟩ => show (r.val * 4096 + e.val) / 16 % 256 = e.val / 16; omega
  | ⟨2, _⟩ => show (r.val * 4096 + e.val) % 16 = e.val % 16; omega

theorem leaf_apply (r : Fin 4096) (e : Fin 4096) :
    val_main_v23 (F := Ideal) X W0 B0 W1 B1 W2 B2 (ix2 r e) = leaf X W0 B0 W1 B1 W2 B2 r e := by
  rw [val_main_v23_apply, idx_main_v23_ix2, level2_apply]
  rfl

/-! ## The two result arrays -/

theorem leaves_eq : val_main_v23 (F := Ideal) X W0 B0 W1 B1 W2 B2 = leaves X W0 B0 W1 B1 W2 B2 := by
  funext i
  exact (congrArg (val_main_v23 (F := Ideal) X W0 B0 W1 B1 W2 B2) (eq_ix2 i)).trans
    (leaf_apply X W0 B0 W1 B1 W2 B2 (i 0) (i 1))

/-- The concatenation of the three levels along the columns: a column below 16 is level 0's, one below 272 is level 1's
    at the column less 16, and the rest are the leaves' at the column less 272. -/
theorem allLevels_eq : val_main_v24 (F := Ideal) X W0 B0 W1 B1 W2 B2 = allLevels X W0 B0 W1 B1 W2 B2 := by
  funext i
  have hi : (i 1).val < 4368 := (i 1).isLt
  unfold val_main_v24 allLevels
  by_cases h0 : (i 1).val < 16
  · rw [dif_pos h0]
    refine (concatenate_apply_piece (α := Elt Ideal .f32) (1 : Fin S4096x4368.rank)
      [⟨S4096x16, val_main_v5 (F := Ideal) X W0 B0⟩, ⟨S4096x256, val_main_v14 (F := Ideal) X W0 B0 W1 B1⟩,
        ⟨S4096x4096, val_main_v23 (F := Ideal) X W0 B0 W1 B1 W2 B2⟩]
      Gen.concatenates_S4096x16_S4096x256_S4096x4096_S4096x4368_d1 i 0 (by simp) S4096x16
      (val_main_v5 (F := Ideal) X W0 B0) rfl rfl 0 rfl (ix2 (i 0) (⟨(i 1).val, h0⟩ : Fin 16))
      (fun b hb => by match b with | ⟨0, _⟩ => rfl | ⟨1, _⟩ => exact absurd rfl hb)
      (by show 0 + (i 1).val = (i 1).val; omega)).trans ?_
    exact top_apply X W0 B0 (i 0) ⟨(i 1).val, h0⟩
  · rw [dif_neg h0]
    by_cases h1 : (i 1).val < 272
    · rw [dif_pos h1]
      refine (concatenate_apply_piece (α := Elt Ideal .f32) (1 : Fin S4096x4368.rank)
        [⟨S4096x16, val_main_v5 (F := Ideal) X W0 B0⟩, ⟨S4096x256, val_main_v14 (F := Ideal) X W0 B0 W1 B1⟩,
        ⟨S4096x4096, val_main_v23 (F := Ideal) X W0 B0 W1 B1 W2 B2⟩]
        Gen.concatenates_S4096x16_S4096x256_S4096x4096_S4096x4368_d1 i 1 (by simp) S4096x256
        (val_main_v14 (F := Ideal) X W0 B0 W1 B1) rfl rfl 16 rfl
        (ix2 (i 0) (⟨(i 1).val - 16, by omega⟩ : Fin 256))
        (fun b hb => by match b with | ⟨0, _⟩ => rfl | ⟨1, _⟩ => exact absurd rfl hb)
        (by show 16 + ((i 1).val - 16) = (i 1).val; omega)).trans ?_
      exact mid_apply X W0 B0 W1 B1 (i 0) ⟨(i 1).val - 16, by omega⟩
    · rw [dif_neg h1]
      refine (concatenate_apply_piece (α := Elt Ideal .f32) (1 : Fin S4096x4368.rank)
        [⟨S4096x16, val_main_v5 (F := Ideal) X W0 B0⟩, ⟨S4096x256, val_main_v14 (F := Ideal) X W0 B0 W1 B1⟩,
        ⟨S4096x4096, val_main_v23 (F := Ideal) X W0 B0 W1 B1 W2 B2⟩]
        Gen.concatenates_S4096x16_S4096x256_S4096x4096_S4096x4368_d1 i 2 (by simp) S4096x4096
        (val_main_v23 (F := Ideal) X W0 B0 W1 B1 W2 B2) rfl rfl 272 rfl
        (ix2 (i 0) (⟨(i 1).val - 272, by omega⟩ : Fin 4096))
        (fun b hb => by match b with | ⟨0, _⟩ => rfl | ⟨1, _⟩ => exact absurd rfl hb)
        (by show 272 + ((i 1).val - 272) = (i 1).val; omega)).trans ?_
      exact leaf_apply X W0 B0 W1 B1 W2 B2 (i 0) ⟨(i 1).val - 272, by omega⟩

end Cert.ReferenceIdeal.Levels
end
-- ==== Proof.lean ====
/-
  A hierarchical log-softmax over three levels (16 classes, 16 children each, 16 children each again), computed by one
  kernel over blocks of 128 input rows and by a reference over all 4096 rows at once: the two programs end with equal
  results at the extended reals.

  Both compute, for every input row, the same thing level by level: scores (the row's product sums against a bank of
  weight rows, plus a bias), a log-softmax inside each group of 16 siblings (shift by the larger of the word of minus
  infinity and the group's maximum, then take off the log of the sum of the shifted entries' exponentials), and the
  parent's log-probability added. They differ only in layout: the kernel meets the banks flattened row-major and a bias
  as one row, computes a block of rows at a time and writes the three levels into bands of one block; the reference
  keeps the banks grouped, broadcasts, and concatenates whole arrays. A change of float format is the identity here, a
  product into a zero accumulator is the product sum, and no step uses more than re-indexing, so the precondition is
  never opened.

  The parts: the row-wise statement (Tree, Flat); the kernel's stored values at an index (KernelLevels, over the general
  LibGroups and LibRowwise); the body's blocks as bands of those values (Pieces); the blocks' inputs in terms of the
  launched arguments (Arrays); the blocks tiling the two result arrays (Blocks); the reference's run stage by stage
  (RefRun, RefRead, RefStages, LibTypedRefs); the reference's stages at an index (RefLevels).
-/
import proofs.«147709_j412316860848_1_alg».proof.Defs
import proofs.«147709_j412316860848_1_alg».proof.Proof.Gen.Kernel
import proofs.«147709_j412316860848_1_alg».proof.Proof.Gen.Kernel.Skeleton
import proofs.«147709_j412316860848_1_alg».proof.Proof.Gen.Kernel.Launch
import proofs.«147709_j412316860848_1_alg».proof.Proof.Gen.Kernel.Points
import proofs.«147709_j412316860848_1_alg».proof.Proof.Gen.Kernel.Frame
import proofs.«147709_j412316860848_1_alg».proof.Proof.Gen.KernelIdeal
import proofs.«147709_j412316860848_1_alg».proof.Proof.Gen.KernelIdeal.Skeleton
import proofs.«147709_j412316860848_1_alg».proof.Proof.Gen.KernelIdeal.Launch
import proofs.«147709_j412316860848_1_alg».proof.Proof.Gen.KernelIdeal.Points
import proofs.«147709_j412316860848_1_alg».proof.Proof.Gen.KernelIdeal.Frame
import proofs.«147709_j412316860848_1_alg».proof.Proof.Gen.ReferenceIdeal
import proofs.«147709_j412316860848_1_alg».proof.Proof.Gen.KernelIdeal.Value
import proofs.«147709_j412316860848_1_alg».proof.Proof.Gen.Pre_finite_inputs
import proofs.«147709_j412316860848_1_alg».proof.Proof.Blocks
import proofs.«147709_j412316860848_1_alg».proof.Proof.RefStages
import proofs.«147709_j412316860848_1_alg».proof.Proof.RefLevels
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Stages.run (F := Ideal) m ρ)

/-- The ideal pass rewrote nothing. -/
theorem preserves : Cert.preserves_Kernel_KernelIdeal := trivial

/-- From memories agreeing on the arguments both programs end with the three levels side by side and the leaves, of the same
    arguments: the kernel's blocks tile those arrays, and the reference's stages are those arrays index by index. -/
theorem algebraic : Cert.algebraic_KernelIdeal_ReferenceIdeal := by
  intro m ρ m' ρ' _ hagree
  refine ⟨fun c => Cert.KernelIdeal.Blocks.allOf m c, fun c => Cert.KernelIdeal.Blocks.leavesOf m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Stages.run (F := Ideal) m' ρ')
  · rw [(hagree c).1, (hagree c).2.1, (hagree c).2.2.1, (hagree c).2.2.2.1, (hagree c).2.2.2.2.1, (hagree c).2.2.2.2.2.1, (hagree c).2.2.2.2.2.2]
    exact Cert.ReferenceIdeal.Levels.allLevels_eq _ _ _ _ _ _ _
  · rw [(hagree c).1, (hagree c).2.1, (hagree c).2.2.1, (hagree c).2.2.2.1, (hagree c).2.2.2.2.1, (hagree c).2.2.2.2.2.1, (hagree c).2.2.2.2.2.2]
    exact Cert.ReferenceIdeal.Levels.leaves_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
